-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x3072 : Shape := ⟨2, ![256, 3072]⟩
abbrev S256 : Shape := ⟨1, ![256]⟩
abbrev S16384x3072 : Shape := ⟨2, ![16384, 3072]⟩
abbrev S_ : Shape := ⟨0, ![]⟩

class Facts : Prop where
  bcast_S_S256x3072 : S_.BroadcastsInDim S256x3072 (![] : Fin 0 → Fin S256x3072.rank)
  reducesTo_S256x3072_S_d0_1 : S256x3072.ReducesTo [0, 1] S_
  h_S_ : 0 < S_.numel
  bcast_S_S16384x3072 : S_.BroadcastsInDim S16384x3072 (![] : Fin 0 → Fin S16384x3072.rank)
  reducesTo_S16384x3072_S_d0_1 : S16384x3072.ReducesTo [0, 1] S_

variable [Facts]

def fn {F : FTy → Type} [FloatOps F] (main_arg0 : FVec F S256x3072 .f32) (main_arg1 : IVec S256 32) (main_arg2 : FVec F S16384x3072 .f32) : IVec S_ 1 :=
  let main_v0 : FVec F S256x3072 .f32 := Host.absf main_arg0
  let main_cst : FVec F S_ .f32 := constant S_ .f32 0x7F800000#32
  let main_v1 : FVec F S256x3072 .f32 := broadcastInDim S256x3072 ![] bcast_S_S256x3072 main_cst
  let main_v2 : IVec S256x3072 1 := cmpf .olt main_v0 main_v1
  let main_c : IVec S_ 1 := constantI S_ 1 1#1
  let main_v3 : IVec S_ 1 := (fun x v => Host.reduce IntOp.andi x v reducesTo_S256x3072_S_d0_1 h_S_) main_v2 main_c
  let main_v4 : FVec F S16384x3072 .f32 := Host.absf main_arg2
  let main_cst_0 : FVec F S_ .f32 := constant S_ .f32 0x7F800000#32
  let main_v5 : FVec F S16384x3072 .f32 := broadcastInDim S16384x3072 ![] bcast_S_S16384x3072 main_cst_0
  let main_v6 : IVec S16384x3072 1 := cmpf .olt main_v4 main_v5
  let main_c_1 : IVec S_ 1 := constantI S_ 1 1#1
  let main_v7 : IVec S_ 1 := (fun x v => Host.reduce IntOp.andi x v reducesTo_S16384x3072_S_d0_1 h_S_) main_v6 main_c_1
  let main_v8 : IVec S_ 1 := andi main_v3 main_v7
  main_v8
-- ==== Kernel.lean ====
abbrev S256x3072 : Shape := ⟨2, ![256, 3072]⟩
abbrev S256 : Shape := ⟨1, ![256]⟩
abbrev S16384x3072 : Shape := ⟨2, ![16384, 3072]⟩
abbrev S_ : Shape := ⟨0, ![]⟩
abbrev S256x1 : Shape := ⟨2, ![256, 1]⟩
abbrev S128x1 : Shape := ⟨2, ![128, 1]⟩
abbrev S128x3072 : Shape := ⟨2, ![128, 3072]⟩
abbrev S1024x3072 : Shape := ⟨2, ![1024, 3072]⟩
abbrev S128x1024 : Shape := ⟨2, ![128, 1024]⟩
abbrev S128 : Shape := ⟨1, ![128]⟩
abbrev S1024 : Shape := ⟨1, ![1024]⟩
abbrev S1x1024 : Shape := ⟨2, ![1, 1024]⟩

abbrev nBuf : Space → Nat
  | .hbm => 39
  | .vmem => 15
  | .smem => 0
  | _ => 0

abbrev bufTy : (tb : Table) → Fin (tcTables nBuf tb) → BufTy
  | .hbm, ⟨0, _⟩ => ⟨S256x3072, .f32⟩
  | .hbm, ⟨1, _⟩ => ⟨S256, .i32⟩
  | .hbm, ⟨2, _⟩ => ⟨S16384x3072, .f32⟩
  | .hbm, ⟨3, _⟩ => ⟨S256, .f32⟩
  | .hbm, ⟨4, _⟩ => ⟨S_, .f32⟩
  | .hbm, ⟨5, _⟩ => ⟨S256, .f32⟩
  | .hbm, ⟨6, _⟩ => ⟨S256, .f32⟩
  | .hbm, ⟨7, _⟩ => ⟨S_, .f32⟩
  | .hbm, ⟨8, _⟩ => ⟨S256, .f32⟩
  | .hbm, ⟨9, _⟩ => ⟨S256, .f32⟩
  | .hbm, ⟨10, _⟩ => ⟨S_, .f32⟩
  | .hbm, ⟨11, _⟩ => ⟨S256, .f32⟩
  | .hbm, ⟨12, _⟩ => ⟨S256, .f32⟩
  | .hbm, ⟨13, _⟩ => ⟨S_, .f32⟩
  | .hbm, ⟨14, _⟩ => ⟨S256, .f32⟩
  | .hbm, ⟨15, _⟩ => ⟨S256, .f32⟩
  | .hbm, ⟨16, _⟩ => ⟨S256, .f32⟩
  | .hbm, ⟨17, _⟩ => ⟨S256, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S256, .f32⟩
  | .hbm, ⟨22, _⟩ => ⟨S256, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S256, .f32⟩
  | .hbm, ⟨27, _⟩ => ⟨S256, .f32⟩
  | .hbm, ⟨28, _⟩ => ⟨S_, .f32⟩
  | .hbm, ⟨29, _⟩ => ⟨S256, .f32⟩
  | .hbm, ⟨30, _⟩ => ⟨S256, .f32⟩
  | .hbm, ⟨31, _⟩ => ⟨S_, .f32⟩
  | .hbm, ⟨32, _⟩ => ⟨S256, .f32⟩
  | .hbm, ⟨33, _⟩ => ⟨S256, .f32⟩
  | .hbm, ⟨34, _⟩ => ⟨S256, .f32⟩
  | .hbm, ⟨35, _⟩ => ⟨S256x1, .f32⟩
  | .hbm, ⟨36, _⟩ => ⟨S256x1, .f32⟩
  | .hbm, ⟨37, _⟩ => ⟨S256x1, .f32⟩
  | .hbm, ⟨38, _⟩ => ⟨S256x3072, .f32⟩
  | .local _ .vmem, ⟨0, _⟩ => ⟨S128x1, .f32⟩
  | .local _ .vmem, ⟨1, _⟩ => ⟨S128x1, .f32⟩
  | .local _ .vmem, ⟨2, _⟩ => ⟨S128x1, .f32⟩
  | .local _ .vmem, ⟨3, _⟩ => ⟨S128x1, .f32⟩
  | .local _ .vmem, ⟨4, _⟩ => ⟨S128x1, .f32⟩
  | .local _ .vmem, ⟨5, _⟩ => ⟨S128x1, .f32⟩
  | .local _ .vmem, ⟨6, _⟩ => ⟨S128x3072, .f32⟩
  | .local _ .vmem, ⟨7, _⟩ => ⟨S128x3072, .f32⟩
  | .local _ .vmem, ⟨8, _⟩ => ⟨S1024x3072, .f32⟩
  | .local _ .vmem, ⟨9, _⟩ => ⟨S1024x3072, .f32⟩
  | .local _ .vmem, ⟨10, _⟩ => ⟨S128x3072, .f32⟩
  | .local _ .vmem, ⟨11, _⟩ => ⟨S128x3072, .f32⟩
  | .local _ .vmem, ⟨12, _⟩ => ⟨S128x3072, .f32⟩
  | .local _ .vmem, ⟨13, _⟩ => ⟨S128x1, .f32⟩
  | .local _ .vmem, ⟨14, _⟩ => ⟨S128x1, .f32⟩
  | _, _ => ⟨S256x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_cst_5 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v15 : Ref sig .tc := ⟨.hbm, 30, rfl⟩
abbrev main_cst_6 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v67 : BitVec 1 := Scalar.cmpi .eq arg1 c15_i32
  let v68 : BitVec 32 := Scalar.extui v67
  let c0_i32_31 : BitVec 32 := 0#32
  let v69 : BitVec 1 := Scalar.cmpi .ne v68 c0_i32_31
  v69

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bcast_S_S256 : S_.BroadcastsInDim S256 (![] : Fin 0 → Fin S256.rank)
  shapeCasts_S256_S256x1 : S256.ShapeCasts S256x1
  inb_S128x3072_S128x3072_0_0 : ∀ a, (![0, 0] : Fin 2 → Nat) a + S128x3072.size a ≤ S128x3072.size a
  h_S128x3072 : 0 < S128x3072.numel
  shapeCasts_S128x3072_S128x3072 : S128x3072.ShapeCasts S128x3072
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1024x3072_S1024x3072_0_0 : ∀ a, (![0, 0] : Fin 2 → Nat) a + S1024x3072.size a ≤ S1024x3072.size a
  h_S1024x3072 : 0 < S1024x3072.numel
  reduces_S128x3072_S128 : S128x3072.Reduces [1] S128
  shapeCasts_S128_S128x1 : S128.ShapeCasts S128x1
  reduces_S1024x3072_S1024 : S1024x3072.Reduces [1] S1024
  shapeCasts_S1024_S1x1024 : S1024.ShapeCasts S1x1024
  broadcasts_S128x1_S128x1024 : S128x1.Broadcasts S128x1024
  broadcasts_S1x1024_S128x1024 : S1x1024.Broadcasts S128x1024
  reduces_S128x1024_S128 : S128x1024.Reduces [1] S128
  broadcasts_S128x1_S128x3072 : S128x1.Broadcasts S128x3072
  dot_S128x3072_S1024x3072_S128x1024_1_1_0_0_n_n_wf : DotDims.WF S128x3072 S1024x3072 S128x1024 [1] [1] [0] [0] [] []
  dot_S128x1024_S1024x3072_S128x3072_1_0_0_1_n_n_wf : DotDims.WF S128x1024 S1024x3072 S128x3072 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1.size a ≤ S256x1.size a
  hwx0_0 : ∀ i : grid0.Coords, EltTy.bits .f32 = 32 ∨ (Rect.block (s := S256x1) S128x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1.size a ≤ S256x1.size a
  hwx0_1 : ∀ i : grid0.Coords, EltTy.bits .f32 = 32 ∨ (Rect.block (s := S256x1) S128x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S256x1.size a
  hwx0_2 : ∀ i : grid0.Coords, EltTy.bits .f32 = 32 ∨ (Rect.block (s := S256x1) S128x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x3072.size a ≤ S256x3072.size a
  hwx0_3 : ∀ i : grid0.Coords, EltTy.bits .f32 = 32 ∨ (Rect.block (s := S256x3072) S128x3072.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x3072.size a ≤ S16384x3072.size a
  hwx0_4 : ∀ i : grid0.Coords, EltTy.bits .f32 = 32 ∨ (Rect.block (s := S16384x3072) S1024x3072.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x3072.size a ≤ S256x3072.size a
  hwx0_5 : ∀ i : grid0.Coords, EltTy.bits .f32 = 32 ∨ (Rect.block (s := S256x3072) S128x3072.size (cc0_transform_5 i) (hinb0_5 i)).WholeWords (EltTy.packing .f32)

variable [Facts₀]

def dot_S128x3072_S1024x3072_S128x1024_1_1_0_0_n_n : DotDims S128x3072 S1024x3072 S128x1024 where
  lhsContracting := [1]
  rhsContracting := [1]
  lhsNonContracting := [0]
  rhsNonContracting := [0]
  lhsBatch := []
  rhsBatch := []
  wf := dot_S128x3072_S1024x3072_S128x1024_1_1_0_0_n_n_wf
def dot_S128x1024_S1024x3072_S128x3072_1_0_0_1_n_n : DotDims S128x1024 S1024x3072 S128x3072 where
  lhsContracting := [1]
  rhsContracting := [0]
  lhsNonContracting := [0]
  rhsNonContracting := [1]
  lhsBatch := []
  rhsBatch := []
  wf := dot_S128x1024_S1024x3072_S128x3072_1_0_0_1_n_n_wf

abbrev win0_0 : Pipeline.Window sig grid0 :=
  Pipeline.Window.ofSpec (Memref.whole main_v19) S128x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S128x3072.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S1024x3072.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v22) S128x3072.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S256x3072 : Shape := ⟨2, ![256, 3072]⟩
abbrev S256 : Shape := ⟨1, ![256]⟩
abbrev S16384x3072 : Shape := ⟨2, ![16384, 3072]⟩
abbrev S_ : Shape := ⟨0, ![]⟩
abbrev S16384 : Shape := ⟨1, ![16384]⟩
abbrev S256x16384 : Shape := ⟨2, ![256, 16384]⟩
abbrev S256x1 : Shape := ⟨2, ![256, 1]⟩
abbrev S1x16384 : Shape := ⟨2, ![1, 16384]⟩

abbrev nBuf : Space → Nat
  | .hbm => 94
  | .vmem => 0
  | .smem => 0
  | _ => 0

abbrev bufTy : (tb : Table) → Fin (tcTables nBuf tb) → BufTy
  | .hbm, ⟨0, _⟩ => ⟨S256x3072, .f32⟩
  | .hbm, ⟨1, _⟩ => ⟨S256, .i32⟩
  | .hbm, ⟨2, _⟩ => ⟨S16384x3072, .f32⟩
  | .hbm, ⟨3, _⟩ => ⟨S256, .f32⟩
  | .hbm, ⟨4, _⟩ => ⟨S_, .f32⟩
  | .hbm, ⟨5, _⟩ => ⟨S256, .f32⟩
  | .hbm, ⟨6, _⟩ => ⟨S256, .f32⟩
  | .hbm, ⟨7, _⟩ => ⟨S_, .f32⟩
  | .hbm, ⟨8, _⟩ => ⟨S256, .f32⟩
  | .hbm, ⟨9, _⟩ => ⟨S256, .f32⟩
  | .hbm, ⟨10, _⟩ => ⟨S_, .f32⟩
  | .hbm, ⟨11, _⟩ => ⟨S256, .f32⟩
  | .hbm, ⟨12, _⟩ => ⟨S256, .f32⟩
  | .hbm, ⟨13, _⟩ => ⟨S_, .f32⟩
  | .hbm, ⟨14, _⟩ => ⟨S256, .f32⟩
  | .hbm, ⟨15, _⟩ => ⟨S256, .f32⟩
  | .hbm, ⟨16, _⟩ => ⟨S256, .f32⟩
  | .hbm, ⟨17, _⟩ => ⟨S256, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S256, .f32⟩
  | .hbm, ⟨22, _⟩ => ⟨S256, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S256, .f32⟩
  | .hbm, ⟨27, _⟩ => ⟨S256, .f32⟩
  | .hbm, ⟨28, _⟩ => ⟨S_, .f32⟩
  | .hbm, ⟨29, _⟩ => ⟨S256, .f32⟩
  | .hbm, ⟨30, _⟩ => ⟨S256, .f32⟩
  | .hbm, ⟨31, _⟩ => ⟨S_, .f32⟩
  | .hbm, ⟨32, _⟩ => ⟨S256, .f32⟩
  | .hbm, ⟨33, _⟩ => ⟨S256, .f32⟩
  | .hbm, ⟨34, _⟩ => ⟨S256, .f32⟩
  | .hbm, ⟨35, _⟩ => ⟨S256x3072, .f32⟩
  | .hbm, ⟨36, _⟩ => ⟨S_, .f32⟩
  | .hbm, ⟨37, _⟩ => ⟨S256, .f32⟩
  | .hbm, ⟨38, _⟩ => ⟨S16384x3072, .f32⟩
  | .hbm, ⟨39, _⟩ => ⟨S_, .f32⟩
  | .hbm, ⟨40, _⟩ => ⟨S16384, .f32⟩
  | .hbm, ⟨41, _⟩ => ⟨S256x16384, .f32⟩
  | .hbm, ⟨42, _⟩ => ⟨S256x1, .f32⟩
  | .hbm, ⟨43, _⟩ => ⟨S256x1, .f32⟩
  | .hbm, ⟨44, _⟩ => ⟨S_, .f32⟩
  | .hbm, ⟨45, _⟩ => ⟨S256x1, .f32⟩
  | .hbm, ⟨46, _⟩ => ⟨S256x1, .f32⟩
  | .hbm, ⟨47, _⟩ => ⟨S256x16384, .f32⟩
  | .hbm, ⟨48, _⟩ => ⟨S256x16384, .f32⟩
  | .hbm, ⟨49, _⟩ => ⟨S256x16384, .f32⟩
  | .hbm, ⟨50, _⟩ => ⟨S256x16384, .f32⟩
  | .hbm, ⟨51, _⟩ => ⟨S256x1, .f32⟩
  | .hbm, ⟨52, _⟩ => ⟨S1x16384, .f32⟩
  | .hbm, ⟨53, _⟩ => ⟨S256x16384, .f32⟩
  | .hbm, ⟨54, _⟩ => ⟨S256x16384, .f32⟩
  | .hbm, ⟨55, _⟩ => ⟨S256x16384, .f32⟩
  | .hbm, ⟨56, _⟩ => ⟨S256x16384, .f32⟩
  | .hbm, ⟨57, _⟩ => ⟨S256, .f32⟩
  | .hbm, ⟨58, _⟩ => ⟨S256x1, .f32⟩
  | .hbm, ⟨59, _⟩ => ⟨S_, .f32⟩
  | .hbm, ⟨60, _⟩ => ⟨S256x1, .f32⟩
  | .hbm, ⟨61, _⟩ => ⟨S256x1, .f32⟩
  | .hbm, ⟨62, _⟩ => ⟨S256x1, .f32⟩
  | .hbm, ⟨63, _⟩ => ⟨S_, .f32⟩
  | .hbm, ⟨64, _⟩ => ⟨S256x1, .f32⟩
  | .hbm, ⟨65, _⟩ => ⟨S256x1, .f32⟩
  | .hbm, ⟨66, _⟩ => ⟨S256x16384, .f32⟩
  | .hbm, ⟨67, _⟩ => ⟨S256x16384, .f32⟩
  | .hbm, ⟨68, _⟩ => ⟨S256x16384, .f32⟩
  | .hbm, ⟨69, _⟩ => ⟨S256x16384, .f32⟩
  | .hbm, ⟨70, _⟩ => ⟨S256x16384, .f32⟩
  | .hbm, ⟨71, _⟩ => ⟨S_, .f32⟩
  | .hbm, ⟨72, _⟩ => ⟨S256, .f32⟩
  | .hbm, ⟨73, _⟩ => ⟨S_, .f32⟩
  | .hbm, ⟨74, _⟩ => ⟨S256, .f32⟩
  | .hbm, ⟨75, _⟩ => ⟨S256, .f32⟩
  | .hbm, ⟨76, _⟩ => ⟨S256x1, .f32⟩
  | .hbm, ⟨77, _⟩ => ⟨S256x16384, .f32⟩
  | .hbm, ⟨78, _⟩ => ⟨S256x16384, .f32⟩
  | .hbm, ⟨79, _⟩ => ⟨S256x16384, .f32⟩
  | .hbm, ⟨80, _⟩ => ⟨S_, .f32⟩
  | .hbm, ⟨81, _⟩ => ⟨S256, .f32⟩
  | .hbm, ⟨82, _⟩ => ⟨S256x1, .f32⟩
  | .hbm, ⟨83, _⟩ => ⟨S256x16384, .f32⟩
  | .hbm, ⟨84, _⟩ => ⟨S256x16384, .f32⟩
  | .hbm, ⟨85, _⟩ => ⟨S256x3072, .f32⟩
  | .hbm, ⟨86, _⟩ => ⟨S256x1, .f32⟩
  | .hbm, ⟨87, _⟩ => ⟨S256x3072, .f32⟩
  | .hbm, ⟨88, _⟩ => ⟨S256x3072, .f32⟩
  | .hbm, ⟨89, _⟩ => ⟨S256x3072, .f32⟩
  | .hbm, ⟨90, _⟩ => ⟨S256, .f32⟩
  | .hbm, ⟨91, _⟩ => ⟨S256x1, .f32⟩
  | .hbm, ⟨92, _⟩ => ⟨S256x3072, .f32⟩
  | .hbm, ⟨93, _⟩ => ⟨S256x3072, .f32⟩
  | _, _ => ⟨S256x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_cst_5 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v15 : Ref sig .tc := ⟨.hbm, 30, rfl⟩
abbrev main_cst_6 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_7 : Ref sig .tc := ⟨.hbm, 36, rfl⟩
abbrev main_v20 : Ref sig .tc := ⟨.hbm, 37, rfl⟩
abbrev main_v21 : Ref sig .tc := ⟨.hbm, 38, rfl⟩
abbrev main_cst_8 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_9 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_10 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_11 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_12 : Ref sig .tc := ⟨.hbm, 71, rfl⟩
abbrev main_v50 : Ref sig .tc := ⟨.hbm, 72, rfl⟩
abbrev main_cst_13 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_14 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩

abbrev nD : Nat := 1
abbrev τ : Topo := Topo.v7x

variable {F : FTy → Type} [FloatOps F]

class Facts₀ : Prop where
  bcast_S_S256 : S_.BroadcastsInDim S256 (![] : Fin 0 → Fin S256.rank)
  reducesTo_S256x3072_S256_d1 : S256x3072.ReducesTo [1] S256
  h_S_ : 0 < S_.numel
  reducesTo_S16384x3072_S16384_d1 : S16384x3072.ReducesTo [1] S16384
  bcast_S256_S256x1_0 : S256.BroadcastsInDim S256x1 (![0] : Fin 1 → Fin S256x1.rank)
  bcast_S_S256x1 : S_.BroadcastsInDim S256x1 (![] : Fin 0 → Fin S256x1.rank)
  bcast_S256x1_S256x16384_0_1 : S256x1.BroadcastsInDim S256x16384 (![0, 1] : Fin 2 → Fin S256x16384.rank)
  bcast_S16384_S1x16384_1 : S16384.BroadcastsInDim S1x16384 (![1] : Fin 1 → Fin S1x16384.rank)
  bcast_S1x16384_S256x16384_0_1 : S1x16384.BroadcastsInDim S256x16384 (![0, 1] : Fin 2 → Fin S256x16384.rank)
  reducesTo_S256x16384_S256_d1 : S256x16384.ReducesTo [1] S256
  bcast_S256x1_S256x3072_0_1 : S256x1.BroadcastsInDim S256x3072 (![0, 1] : Fin 2 → Fin S256x3072.rank)
  dot_S256x3072_S16384x3072_S256x16384_1_1_0_0_n_n_wf : DotDims.WF S256x3072 S16384x3072 S256x16384 [1] [1] [0] [0] [] []
  dot_S256x16384_S16384x3072_S256x3072_1_0_0_1_n_n_wf : DotDims.WF S256x16384 S16384x3072 S256x3072 [1] [0] [0] [1] [] []

variable [Facts₀]

def dot_S256x3072_S16384x3072_S256x16384_1_1_0_0_n_n : DotDims S256x3072 S16384x3072 S256x16384 where
  lhsContracting := [1]
  rhsContracting := [1]
  lhsNonContracting := [0]
  rhsNonContracting := [0]
  lhsBatch := []
  rhsBatch := []
  wf := dot_S256x3072_S16384x3072_S256x16384_1_1_0_0_n_n_wf
def dot_S256x16384_S16384x3072_S256x3072_1_0_0_1_n_n : DotDims S256x16384 S16384x3072 S256x3072 where
  lhsContracting := [1]
  rhsContracting := [0]
  lhsNonContracting := [0]
  rhsNonContracting := [1]
  lhsBatch := []
  rhsBatch := []
  wf := dot_S256x16384_S16384x3072_S256x3072_1_0_0_1_n_n_wf

class Facts : Prop extends Facts₀ where

variable [Facts]
-- ==== Proof.Scalars.lean ====
/-
  The numbers the proof needs as reals: the finite-inputs precondition makes every entry of the two float inputs a
  real; the clip bounds of the schedule are reals 0 < lo ≤ hi < 1, so a clipped value is a real strictly between 0
  and 1 whatever was clipped; the literals 1, 1/2, 2 and 1536 are reals.
-/
import proofs.«167547_j90323162235656_1_alg».proof.Pre_finite_inputs
import proofs.«167547_j90323162235656_1_alg».proof.Proof.Gen.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.Scalars

open Idealize.ShloMosaic Idealize.ShloMosaic.ValueIdx

/-! ### The literals, as the reals their patterns spell -/

/-- The pattern of +∞ denotes ⊤. -/
theorem inf_eq : Ideal.ofBits .f32 0x7F800000#32 = (⊤ : EReal) := by
  simp [Ideal.ofBits, Ideal.ieee]

/-- The literal one. -/
theorem one_eq : Ideal.ofBits .f32 0x3F800000#32 = (1 : EReal) := by
  simp [Ideal.ofBits, Ideal.ieee, -EReal.coe_mul] <;> norm_num

/-- 0x3F000000: exponent field 126, fraction 0, so 2^23 · 2^(126 − 127 − 23) = 1/2. -/
theorem half_eq : Ideal.ofBits .f32 0x3F000000#32 = ((1 / 2 : ℝ) : EReal) := by
  simp [Ideal.ofBits, Ideal.ieee, -EReal.coe_mul] <;> norm_num

/-- 0x40000000: exponent field 128, fraction 0, so 2^23 · 2^(128 − 127 − 23) = 2. -/
theorem two_eq : Ideal.ofBits .f32 0x40000000#32 = ((2 : ℝ) : EReal) := by
  simp [Ideal.ofBits, Ideal.ieee, -EReal.coe_mul] <;> norm_num

/-- 0x44C00000: exponent field 137, fraction 2^22, so (2^23 + 2^22) · 2^(137 − 127 − 23) = 1536. -/
theorem halfD_eq : Ideal.ofBits .f32 0x44C00000#32 = ((1536 : ℝ) : EReal) := by
  simp [Ideal.ofBits, Ideal.ieee, -EReal.coe_mul] <;> norm_num

/-- 0x3727C5AC: exponent field 110, fraction 2606508, so (2^23 + 2606508) · 2^(110 − 127 − 23). -/
theorem lo_eq : Ideal.ofBits .f32 0x3727C5AC#32 = ((10995116 * (2 : ℝ) ^ (-40 : Int) : ℝ) : EReal) := by
  simp [Ideal.ofBits, Ideal.ieee, -EReal.coe_mul] <;> norm_num

/-- 0x3F7FFF58: exponent field 126, fraction 8388440, so (2^23 + 8388440) · 2^(126 − 127 − 23). -/
theorem hi_eq : Ideal.ofBits .f32 0x3F7FFF58#32 = ((16777048 * (2 : ℝ) ^ (-24 : Int) : ℝ) : EReal) := by
  simp [Ideal.ofBits, Ideal.ieee, -EReal.coe_mul] <;> norm_num

/-- The literals 1/2, 2 and 1536 are reals. -/
theorem half_real : ∃ r : ℝ, Ideal.ofBits .f32 0x3F000000#32 = (r : EReal) := ⟨_, half_eq⟩
theorem two_real : ∃ r : ℝ, Ideal.ofBits .f32 0x40000000#32 = (r : EReal) := ⟨_, two_eq⟩
theorem halfD_real : ∃ r : ℝ, Ideal.ofBits .f32 0x44C00000#32 = (r : EReal) := ⟨_, halfD_eq⟩

/-! ### Clipping between two reals -/

/-- For reals 0 < lo ≤ hi < 1 and ANY extended real e, min hi (max lo e) is a real in (0, 1): at ⊥ it is lo, at ⊤ it
    is hi, and at a real x it is the real min hi (max lo x), which lies between lo and hi. -/
theorem clip_real_of (lo hi : ℝ) (h0 : 0 < lo) (hle : lo ≤ hi) (h1 : hi < 1) (e : EReal) :
    ∃ r : ℝ, 0 < r ∧ r < 1 ∧ min (hi : EReal) (max (lo : EReal) e) = (r : EReal) := by
  induction e using EReal.rec with
  | bot =>
    exact ⟨lo, h0, lt_of_le_of_lt hle h1, by
      rw [max_eq_left bot_le, min_eq_right (EReal.coe_le_coe_iff.2 hle)]⟩
  | coe x =>
    refine ⟨min hi (max lo x), lt_min (lt_of_lt_of_le h0 hle) (lt_max_of_lt_left h0), min_lt_of_left_lt h1, ?_⟩
    rw [(EReal.coe_strictMono.monotone).map_min, (EReal.coe_strictMono.monotone).map_max]
  | top =>
    exact ⟨hi, lt_of_lt_of_le h0 hle, h1, by rw [max_eq_right le_top, min_eq_left le_top]⟩

/-- A value clipped between the schedule's bounds is a real strictly between 0 and 1, whatever was clipped. -/
theorem clip_real (e : EReal) :
    ∃ r : ℝ, 0 < r ∧ r < 1 ∧ min (Ideal.ofBits .f32 0x3F7FFF58#32) (max (Ideal.ofBits .f32 0x3727C5AC#32) e) = (r : EReal) := by
  rw [hi_eq, lo_eq]
  exact clip_real_of _ _ (by positivity) (by norm_num) (by norm_num) e

/-! ### The precondition -/

instance : Subsingleton Cert.Pre_finite_inputs.S_.Idx := ⟨fun a b => funext fun d => d.elim0⟩

/-- An extended real x with |x| = max x (−x) strictly below ⊤ is a real: at ⊥ and at ⊤ the maximum is ⊤. -/
theorem real_of_abs_lt (x : EReal)
    (h : Ideal.cmp .olt (max x (-x)) (Ideal.ofBits .f32 0x7F800000#32) = 1#1) : ∃ r : ℝ, x = (r : EReal) := by
  rw [inf_eq] at h
  induction x using EReal.rec with
  | bot => exact absurd h (by simp [Ideal.cmp])
  | coe r => exact ⟨r, rfl⟩
  | top => exact absurd h (by simp [Ideal.cmp])

/-- Under the precondition every entry of the query array and of the data array is a real. -/
theorem real_of_pre (x0 : FVec Ideal Cert.Pre_finite_inputs.S256x3072 .f32) (x1 : IVec Cert.Pre_finite_inputs.S256 32)
    (x2 : FVec Ideal Cert.Pre_finite_inputs.S16384x3072 .f32)
    (h : Cert.Pre_finite_inputs.fn (F := Ideal) x0 x1 x2 = fun _ => 1#1) :
    (∀ i, ∃ r : ℝ, x0 i = (r : EReal)) ∧ (∀ i, ∃ r : ℝ, x2 i = (r : EReal)) := by
  have h0 := congrFun h ValueIdx.ix0
  dsimp only [Cert.Pre_finite_inputs.fn] at h0
  obtain ⟨ha, hb⟩ := IntOp.andi_eq_one.1 h0
  refine ⟨fun i => ?_, fun i => ?_⟩
  · have hi := Host.reduce_andi_all _ _ _ _ _ ha i
    exact real_of_abs_lt (x0 i) hi
  · have hi := Host.reduce_andi_all _ _ _ _ _ hb i
    exact real_of_abs_lt (x2 i) hi

end Cert.Scalars

end
-- ==== Proof.KernelPieces.lean ====
/-
  What each control case of the kernel body leaves in the three carried scratch buffers (weighted sum, running
  maximum, denominator) and, in the last case, in the output block: the stored payloads as pure terms of the blocks
  the body loaded.  The first step of a row block (case A) resets the scratch and then updates it, so its update
  reads the reset values; the later steps (B, C) read what the step before left; the last step (C) also divides.
-/
import proofs.«167547_j90323162235656_1_alg».proof.Proof.Gen.KernelIdeal.Frame
import Idealize.ShloMosaic.Lib.Pipeline.Value

set_option maxRecDepth 16384

noncomputable section

namespace Cert.KernelIdeal.Pieces

open Cert.KernelIdeal Cert.KernelIdeal.Gen Idealize.ShloMosaic Idealize.ShloMosaic.TcCoe Idealize.SL.Sem

variable {F : FTy → Type} [FloatOps F]
variable (c : Dev nD) (i : grid0.Coords)
  (arg2 : Memref sig .tc .vmem S128x1 .f32) (harg2 : arg2.IsWhole) (arg3 : Memref sig .tc .vmem S128x1 .f32) (harg3 : arg3.IsWhole)
  (arg4 : Memref sig .tc .vmem S128x1 .f32) (harg4 : arg4.IsWhole) (arg5 : Memref sig .tc .vmem S128x3072 .f32) (harg5 : arg5.IsWhole)
  (arg6 : Memref sig .tc .vmem S1024x3072 .f32) (harg6 : arg6.IsWhole) (arg7 : Memref sig .tc .vmem S128x3072 .f32) (harg7 : arg7.IsWhole)
  (arg8 : Memref sig .tc .vmem S128x3072 .f32) (harg8 : arg8.IsWhole) (arg9 : Memref sig .tc .vmem S128x1 .f32) (harg9 : arg9.IsWhole)
  (arg10 : Memref sig .tc .vmem S128x1 .f32) (harg10 : arg10.IsWhole)
  (x0 x1 x2 : Vec F S128x1 .f32) (x3 : Vec F S128x3072 .f32) (x4 : Vec F S1024x3072 .f32)
  (xs0 : Vec F S128x3072 .f32) (xs1 xs2 : Vec F S128x1 .f32)

/-! ## Case A: the first step of a row block -/

theorem acc_A (hc0 : cond0_0 i) (hc1 : ¬cond0_1 i) :
    sout0_A_0 (F := F) c i arg2 harg2 arg3 harg3 arg4 harg4 arg5 harg5 arg6 harg6 arg7 harg7 arg8 harg8 arg9 harg9 arg10 harg10 hc0 hc1 x0 x1 x2 x3 x4
      = k0_pay6 x4 (k0_pay12 x3 x4 x0 x1 x2) k0_pay13 k0_pay10 k0_pay9 := by
  -- every load and store spans its whole buffer: the literal offset (0, 0) is the zero function
  have offset_zero : (![0, 0] : Fin 2 → Nat) = fun _ => 0 := funext fun a => by fin_cases a <;> rfl
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S128x3072) offset_zero, View.readCov_unit_zero (S := S128x3072) _ offset_zero]
  simp only [View.readAt_eq_ld, harg2.read_unread, harg3.read_unread, harg4.read_unread, harg5.read_unread,
    harg6.read_unread, harg8.read_unread, harg9.read_unread, harg10.read_unread, View.ld_unit_zero (S := S128x1) offset_zero,
    View.ld_unit_zero (S := S128x3072) offset_zero, View.ld_unit_zero (S := S1024x3072) offset_zero,
    View.readCov_unit_zero (S := S128x1) _ offset_zero, View.readCov_unit_zero (S := S128x3072) _ offset_zero]

theorem max_A (hc0 : cond0_0 i) (hc1 : ¬cond0_1 i) :
    sout0_A_1 (F := F) c i arg2 harg2 arg3 harg3 arg4 harg4 arg5 harg5 arg6 harg6 arg7 harg7 arg8 harg8 arg9 harg9 arg10 harg10 hc0 hc1 x0 x1 x2 x3 x4
      = k0_pay7 (k0_pay12 x3 x4 x0 x1 x2) k0_pay13 k0_pay10 := by
  -- every load and store spans its whole buffer: the literal offset (0, 0) is the zero function
  have offset_zero : (![0, 0] : Fin 2 → Nat) = fun _ => 0 := funext fun a => by fin_cases a <;> rfl
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S128x1) offset_zero, View.readCov_unit_zero (S := S128x1) _ offset_zero]
  simp only [View.readAt_eq_ld, harg2.read_unread, harg3.read_unread, harg4.read_unread, harg5.read_unread,
    harg6.read_unread, harg8.read_unread, harg9.read_unread, harg10.read_unread, View.ld_unit_zero (S := S128x1) offset_zero,
    View.ld_unit_zero (S := S128x3072) offset_zero, View.ld_unit_zero (S := S1024x3072) offset_zero,
    View.readCov_unit_zero (S := S128x1) _ offset_zero, View.readCov_unit_zero (S := S128x3072) _ offset_zero]

theorem den_A (hc0 : cond0_0 i) (hc1 : ¬cond0_1 i) :
    sout0_A_2 (F := F) c i arg2 harg2 arg3 harg3 arg4 harg4 arg5 harg5 arg6 harg6 arg7 harg7 arg8 harg8 arg9 harg9 arg10 harg10 hc0 hc1 x0 x1 x2 x3 x4
      = k0_pay5 (k0_pay12 x3 x4 x0 x1 x2) k0_pay13 k0_pay10 k0_pay11 := by
  -- every load and store spans its whole buffer: the literal offset (0, 0) is the zero function
  have offset_zero : (![0, 0] : Fin 2 → Nat) = fun _ => 0 := funext fun a => by fin_cases a <;> rfl
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S128x1) offset_zero, View.readCov_unit_zero (S := S128x1) _ offset_zero]
  simp only [View.readAt_eq_ld, harg2.read_unread, harg3.read_unread, harg4.read_unread, harg5.read_unread,
    harg6.read_unread, harg8.read_unread, harg9.read_unread, harg10.read_unread, View.ld_unit_zero (S := S128x1) offset_zero,
    View.ld_unit_zero (S := S128x3072) offset_zero, View.ld_unit_zero (S := S1024x3072) offset_zero,
    View.readCov_unit_zero (S := S128x1) _ offset_zero, View.readCov_unit_zero (S := S128x3072) _ offset_zero]

/-! ## Case B: a middle step -/

theorem acc_B (hc0 : ¬cond0_0 i) (hc1 : ¬cond0_1 i) :
    sout0_B_0 (F := F) c i arg2 harg2 arg3 harg3 arg4 harg4 arg5 harg5 arg6 harg6 arg7 harg7 arg8 harg8 arg9 harg9 arg10 harg10 hc0 hc1 x0 x1 x2 x3 x4 xs0 xs1 xs2
      = k0_pay6 x4 (k0_pay12 x3 x4 x0 x1 x2) k0_pay13 xs1 xs0 := by
  -- every load and store spans its whole buffer: the literal offset (0, 0) is the zero function
  have offset_zero : (![0, 0] : Fin 2 → Nat) = fun _ => 0 := funext fun a => by fin_cases a <;> rfl
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 xs0 xs1 xs2)]
  unfold kernelRun0_B
  dsimp only
  sl_unfold_words
  rw [View.canon_unit_zero offset_zero]
  simp only [View.readAt_eq_ld, harg2.read_unread, harg3.read_unread, harg4.read_unread, harg5.read_unread,
    harg6.read_unread, harg8.read_unread, harg9.read_unread, harg10.read_unread, View.ld_unit_zero (S := S128x1) offset_zero,
    View.ld_unit_zero (S := S128x3072) offset_zero, View.ld_unit_zero (S := S1024x3072) offset_zero,
    View.readCov_unit_zero (S := S128x1) _ offset_zero, View.readCov_unit_zero (S := S128x3072) _ offset_zero]

theorem max_B (hc0 : ¬cond0_0 i) (hc1 : ¬cond0_1 i) :
    sout0_B_1 (F := F) c i arg2 harg2 arg3 harg3 arg4 harg4 arg5 harg5 arg6 harg6 arg7 harg7 arg8 harg8 arg9 harg9 arg10 harg10 hc0 hc1 x0 x1 x2 x3 x4 xs0 xs1 xs2
      = k0_pay7 (k0_pay12 x3 x4 x0 x1 x2) k0_pay13 xs1 := by
  -- every load and store spans its whole buffer: the literal offset (0, 0) is the zero function
  have offset_zero : (![0, 0] : Fin 2 → Nat) = fun _ => 0 := funext fun a => by fin_cases a <;> rfl
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 x4 xs0 xs1 xs2)]
  unfold kernelRun0_B
  dsimp only
  sl_unfold_words
  rw [View.canon_unit_zero offset_zero]
  simp only [View.readAt_eq_ld, harg2.read_unread, harg3.read_unread, harg4.read_unread, harg5.read_unread,
    harg6.read_unread, harg8.read_unread, harg9.read_unread, harg10.read_unread, View.ld_unit_zero (S := S128x1) offset_zero,
    View.ld_unit_zero (S := S128x3072) offset_zero, View.ld_unit_zero (S := S1024x3072) offset_zero,
    View.readCov_unit_zero (S := S128x1) _ offset_zero, View.readCov_unit_zero (S := S128x3072) _ offset_zero]

theorem den_B (hc0 : ¬cond0_0 i) (hc1 : ¬cond0_1 i) :
    sout0_B_2 (F := F) c i arg2 harg2 arg3 harg3 arg4 harg4 arg5 harg5 arg6 harg6 arg7 harg7 arg8 harg8 arg9 harg9 arg10 harg10 hc0 hc1 x0 x1 x2 x3 x4 xs0 xs1 xs2
      = k0_pay5 (k0_pay12 x3 x4 x0 x1 x2) k0_pay13 xs1 xs2 := by
  -- every load and store spans its whole buffer: the literal offset (0, 0) is the zero function
  have offset_zero : (![0, 0] : Fin 2 → Nat) = fun _ => 0 := funext fun a => by fin_cases a <;> rfl
  unfold sout0_B_2
  rw [View.read_writes_eq_canon _ _ _ (scover0_B_2 c i arg2 harg2 arg3 harg3 arg4 harg4 arg5 harg5 arg6 harg6 arg7 harg7 arg8 harg8 arg9 harg9 arg10 harg10 hc0 hc1 x0 x1 x2 x3 x4 xs0 xs1 xs2)]
  unfold kernelRun0_B
  dsimp only
  sl_unfold_words
  rw [View.canon_unit_zero offset_zero]
  simp only [View.readAt_eq_ld, harg2.read_unread, harg3.read_unread, harg4.read_unread, harg5.read_unread,
    harg6.read_unread, harg8.read_unread, harg9.read_unread, harg10.read_unread, View.ld_unit_zero (S := S128x1) offset_zero,
    View.ld_unit_zero (S := S128x3072) offset_zero, View.ld_unit_zero (S := S1024x3072) offset_zero,
    View.readCov_unit_zero (S := S128x1) _ offset_zero, View.readCov_unit_zero (S := S128x3072) _ offset_zero]

/-! ## Case C: the last step of a row block -/

theorem acc_C (hc0 : ¬cond0_0 i) (hc1 : cond0_1 i) :
    sout0_C_0 (F := F) c i arg2 harg2 arg3 harg3 arg4 harg4 arg5 harg5 arg6 harg6 arg7 harg7 arg8 harg8 arg9 harg9 arg10 harg10 hc0 hc1 x0 x1 x2 x3 x4 xs0 xs1 xs2
      = k0_pay6 x4 (k0_pay12 x3 x4 x0 x1 x2) k0_pay13 xs1 xs0 := by
  -- every load and store spans its whole buffer: the literal offset (0, 0) is the zero function
  have offset_zero : (![0, 0] : Fin 2 → Nat) = fun _ => 0 := funext fun a => by fin_cases a <;> rfl
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  rw [View.canon_unit_zero offset_zero]
  simp only [View.readAt_eq_ld, harg2.read_unread, harg3.read_unread, harg4.read_unread, harg5.read_unread,
    harg6.read_unread, harg8.read_unread, harg9.read_unread, harg10.read_unread, View.ld_unit_zero (S := S128x1) offset_zero,
    View.ld_unit_zero (S := S128x3072) offset_zero, View.ld_unit_zero (S := S1024x3072) offset_zero,
    View.readCov_unit_zero (S := S128x1) _ offset_zero, View.readCov_unit_zero (S := S128x3072) _ offset_zero]

theorem max_C (hc0 : ¬cond0_0 i) (hc1 : cond0_1 i) :
    sout0_C_1 (F := F) c i arg2 harg2 arg3 harg3 arg4 harg4 arg5 harg5 arg6 harg6 arg7 harg7 arg8 harg8 arg9 harg9 arg10 harg10 hc0 hc1 x0 x1 x2 x3 x4 xs0 xs1 xs2
      = k0_pay7 (k0_pay12 x3 x4 x0 x1 x2) k0_pay13 xs1 := by
  -- every load and store spans its whole buffer: the literal offset (0, 0) is the zero function
  have offset_zero : (![0, 0] : Fin 2 → Nat) = fun _ => 0 := funext fun a => by fin_cases a <;> rfl
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  rw [View.canon_unit_zero offset_zero]
  simp only [View.readAt_eq_ld, harg2.read_unread, harg3.read_unread, harg4.read_unread, harg5.read_unread,
    harg6.read_unread, harg8.read_unread, harg9.read_unread, harg10.read_unread, View.ld_unit_zero (S := S128x1) offset_zero,
    View.ld_unit_zero (S := S128x3072) offset_zero, View.ld_unit_zero (S := S1024x3072) offset_zero,
    View.readCov_unit_zero (S := S128x1) _ offset_zero, View.readCov_unit_zero (S := S128x3072) _ offset_zero]

theorem den_C (hc0 : ¬cond0_0 i) (hc1 : cond0_1 i) :
    sout0_C_2 (F := F) c i arg2 harg2 arg3 harg3 arg4 harg4 arg5 harg5 arg6 harg6 arg7 harg7 arg8 harg8 arg9 harg9 arg10 harg10 hc0 hc1 x0 x1 x2 x3 x4 xs0 xs1 xs2
      = k0_pay5 (k0_pay12 x3 x4 x0 x1 x2) k0_pay13 xs1 xs2 := by
  -- every load and store spans its whole buffer: the literal offset (0, 0) is the zero function
  have offset_zero : (![0, 0] : Fin 2 → Nat) = fun _ => 0 := funext fun a => by fin_cases a <;> rfl
  unfold sout0_C_2
  rw [View.read_writes_eq_canon _ _ _ (scover0_C_2 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  rw [View.canon_unit_zero offset_zero]
  simp only [View.readAt_eq_ld, harg2.read_unread, harg3.read_unread, harg4.read_unread, harg5.read_unread,
    harg6.read_unread, harg8.read_unread, harg9.read_unread, harg10.read_unread, View.ld_unit_zero (S := S128x1) offset_zero,
    View.ld_unit_zero (S := S128x3072) offset_zero, View.ld_unit_zero (S := S1024x3072) offset_zero,
    View.readCov_unit_zero (S := S128x1) _ offset_zero, View.readCov_unit_zero (S := S128x3072) _ offset_zero]

/-- The output block the last step stores: the quotient of the updated weighted sum by the updated denominator,
    scaled and subtracted from the query block, over √variance. -/
theorem out_C (hc0 : ¬cond0_0 i) (hc1 : cond0_1 i) :
    out0_C_5 (F := F) c i arg2 harg2 arg3 harg3 arg4 harg4 arg5 harg5 arg6 harg6 arg7 harg7 arg8 harg8 arg9 harg9 arg10 harg10 hc0 hc1 x0 x1 x2 x3 x4 xs0 xs1 xs2
      = k0_pay8 (k0_pay6 x4 (k0_pay12 x3 x4 x0 x1 x2) k0_pay13 xs1 xs0)
          (k0_pay5 (k0_pay12 x3 x4 x0 x1 x2) k0_pay13 xs1 xs2) x3 x2 x1 := by
  -- every load and store spans its whole buffer: the literal offset (0, 0) is the zero function
  have offset_zero : (![0, 0] : Fin 2 → Nat) = fun _ => 0 := funext fun a => by fin_cases a <;> rfl
  unfold out0_C_5
  rw [View.read_writes_eq_canon _ _ _ (cover0_C_5 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  rw [View.canon_unit_zero offset_zero]
  simp only [View.readAt_eq_ld, harg2.read_unread, harg3.read_unread, harg4.read_unread, harg5.read_unread,
    harg6.read_unread, harg8.read_unread, harg9.read_unread, harg10.read_unread, View.ld_unit_zero (S := S128x1) offset_zero,
    View.ld_unit_zero (S := S128x3072) offset_zero, View.ld_unit_zero (S := S1024x3072) offset_zero,
    View.readCov_unit_zero (S := S128x1) _ offset_zero, View.readCov_unit_zero (S := S128x3072) _ offset_zero]

end Cert.KernelIdeal.Pieces

end
-- ==== Proof.Spec.lean ====
/-
  The logit of one query row against one data row, from the row's three scalars (a = the clipped cosine
  schedule value alpha, v = 1 − alpha, s = √alpha) and the three inner products xx = ⟨x,x⟩, xy = ⟨x,y⟩, yy = ⟨y,y⟩:
  −(1536 · log v + (1/2)·‖x − s·y‖² / v), the squared distance expanded as xx − 2·s·xy + a·yy.  Two spellings occur:
  the quotient of the halved distance by v, and the halved reciprocal of v times the distance.
-/
import Idealize.ShloMosaic.PureOps.Ideal

noncomputable section

namespace Cert.Spec

open Idealize.ShloMosaic

/-- The logit with the halved distance divided by the variance. -/
def logitQuot (a v s xx xy yy : EReal) : EReal :=
  -(Ideal.ofBits .f32 0x44C00000#32 * Ideal.log v
      + Ideal.div (Ideal.ofBits .f32 0x3F000000#32 * ((xx - (Ideal.ofBits .f32 0x40000000#32 * s) * xy) + a * yy)) v)

/-- The logit with the half divided by the variance first, then multiplied by the distance. -/
def logitRecip (a v s xx xy yy : EReal) : EReal :=
  -(Ideal.ofBits .f32 0x44C00000#32 * Ideal.log v
      + Ideal.div (Ideal.ofBits .f32 0x3F000000#32) v * ((xx - (Ideal.ofBits .f32 0x40000000#32 * s) * xy) + a * yy))

end Cert.Spec

end
-- ==== Proof.KernelStep.lean ====
/-
  The kernel body's arithmetic at the exact instance, read at an index.  One grid step holds a block of 128 query
  rows (x3), a block of 1024 data rows (x4) and the rows' scalars alpha, variance, √alpha (x0, x1, x2, columns);
  from the running maximum, denominator and weighted sum of the steps before (mp, lp, ap) it makes the new ones.
-/
import proofs.«167547_j90323162235656_1_alg».proof.Proof.Gen.KernelIdeal.Skeleton
import proofs.«167547_j90323162235656_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Step

open Cert.KernelIdeal Cert.KernelIdeal.Gen Idealize.ShloMosaic Idealize.ShloMosaic.ValueIdx

/-! ## Layout operations of a column of row scalars, read at an index -/

section Columns
variable {α : Type}

/-- A vector of a entries viewed as a column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast along the lanes to [a, b] reads, at (p, c), the column's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Columns

/-! ## A reduction along the lanes, read at a row -/

/-- The sum along the lanes of an [a, b] array, at row p, is the sum over the row's entries. -/
theorem laneSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction (F := Ideal) .add [1] ⟨1, ![a]⟩ src 0x00000000#32 h hφ hacc (ix1 p) = ∑ q : Fin b, src (ix2 p q) := by
  refine (Ideal.multiReduction_add_single src 0x00000000#32 h hφ hacc (ix1 p)).trans ?_
  refine Finset.sum_congr rfl fun q _ => congrArg src ?_
  funext ax
  match ax with
  | ⟨0, _⟩ => rfl
  | ⟨1, _⟩ => rfl

/-- The word 0xFF800000 is the least extended real. -/
theorem ofBits_negInf_f32 : Ideal.ofBits .f32 0xFF800000#32 = ⊥ := by simp [Ideal.ofBits, Ideal.ieee]

/-- The maximum along the lanes of an [a, b] array, at row p, is the supremum of the row's entries. -/
theorem laneMax_apply {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (p : Fin a) :
    multiReduction (F := Ideal) .maximumf [1] ⟨1, ![a]⟩ src 0xFF800000#32 h hφ hacc (ix1 p)
      = Finset.univ.sup fun q : Fin b => src (ix2 p q) := by
  refine (Ideal.multiReduction_maximumf_single src 0xFF800000#32 h hφ hacc (ix1 p)).trans ?_
  rw [Ideal.ofBits_def, ofBits_negInf_f32]
  show Finset.univ.fold max ⊥ (src ∘ h.lift (ix1 p)) = Finset.univ.fold max ⊥ fun q : Fin b => src (ix2 p q)
  refine congrArg (Finset.univ.fold max ⊥) (funext fun q => congrArg src ?_)
  funext ax
  match ax with
  | ⟨0, _⟩ => rfl
  | ⟨1, _⟩ => rfl

/-! ## The two block products, read at an index -/

/-- Query rows against data rows: the left operand's row is the result's row … -/
theorem lhs_qk_0 (i : S128x1024.Idx) (q : dot_S128x3072_S1024x3072_S128x1024_1_1_0_0_n_n.contr.Idx) :
    (dot_S128x3072_S1024x3072_S128x1024_1_1_0_0_n_n.lhsIdx i q 0).val = (i 0).val := by
  unfold DotDims.lhsIdx
  rw [dif_neg (show ¬(0 : Fin S128x3072.rank) ∈ dot_S128x3072_S1024x3072_S128x1024_1_1_0_0_n_n.lhsBatch by decide), dif_pos (show (0 : Fin S128x3072.rank) ∈ dot_S128x3072_S1024x3072_S128x1024_1_1_0_0_n_n.lhsNonContracting by decide)]
  rfl
/-- … its column the contraction coordinate; -/
theorem lhs_qk_1 (i : S128x1024.Idx) (q : dot_S128x3072_S1024x3072_S128x1024_1_1_0_0_n_n.contr.Idx) :
    (dot_S128x3072_S1024x3072_S128x1024_1_1_0_0_n_n.lhsIdx i q 1).val = (q ⟨0, by decide⟩).val :=
  dot_S128x3072_S1024x3072_S128x1024_1_1_0_0_n_n.lhsIdx_val_of_single rfl i q
/-- the right operand's row is the result's column … -/
theorem rhs_qk_0 (i : S128x1024.Idx) (q : dot_S128x3072_S1024x3072_S128x1024_1_1_0_0_n_n.contr.Idx) :
    (dot_S128x3072_S1024x3072_S128x1024_1_1_0_0_n_n.rhsIdx i q 0).val = (i 1).val := by
  unfold DotDims.rhsIdx
  rw [dif_neg (show ¬(0 : Fin S1024x3072.rank) ∈ dot_S128x3072_S1024x3072_S128x1024_1_1_0_0_n_n.rhsBatch by decide), dif_pos (show (0 : Fin S1024x3072.rank) ∈ dot_S128x3072_S1024x3072_S128x1024_1_1_0_0_n_n.rhsNonContracting by decide)]
  rfl
/-- … and its column the contraction coordinate. -/
theorem rhs_qk_1 (i : S128x1024.Idx) (q : dot_S128x3072_S1024x3072_S128x1024_1_1_0_0_n_n.contr.Idx) :
    (dot_S128x3072_S1024x3072_S128x1024_1_1_0_0_n_n.rhsIdx i q 1).val = (q ⟨0, by decide⟩).val :=
  dot_S128x3072_S1024x3072_S128x1024_1_1_0_0_n_n.rhsIdx_val_of_single rfl i q

/-- The product of the query block with the data block transposed, into zero: entry (p, q) is the inner product of
    query row p and data row q. -/
theorem qk_apply (x3 : FVec Ideal S128x3072 .f32) (x4 : FVec Ideal S1024x3072 .f32) (p : Fin 128) (q : Fin 1024) :
    matmul (F := Ideal) dot_S128x3072_S1024x3072_S128x1024_1_1_0_0_n_n (some .fp32) x3 x4 (constant (F := Ideal) S128x1024 .f32 0x00000000#32) (ix2 p q)
      = ∑ k : Fin 3072, x3 (ix2 p k) * x4 (ix2 q k) := by
  simp only [matmul]
  rw [Ideal.matmul_constant_zero_apply, ← Equiv.sum_comp (contrEquiv1 dot_S128x3072_S1024x3072_S128x1024_1_1_0_0_n_n 3072 rfl rfl).symm]
  refine Finset.sum_congr rfl fun k _ => ?_
  have hk := contrEquiv1_symm_val dot_S128x3072_S1024x3072_S128x1024_1_1_0_0_n_n 3072 rfl rfl k
  have el : dot_S128x3072_S1024x3072_S128x1024_1_1_0_0_n_n.lhsIdx (ix2 p q) ((contrEquiv1 dot_S128x3072_S1024x3072_S128x1024_1_1_0_0_n_n 3072 rfl rfl).symm k) = ix2 p k := funext fun a => Fin.ext (by
    match a with
    | ⟨0, _⟩ => exact lhs_qk_0 _ _
    | ⟨1, _⟩ => exact (lhs_qk_1 _ _).trans hk)
  have er : dot_S128x3072_S1024x3072_S128x1024_1_1_0_0_n_n.rhsIdx (ix2 p q) ((contrEquiv1 dot_S128x3072_S1024x3072_S128x1024_1_1_0_0_n_n 3072 rfl rfl).symm k) = ix2 q k := funext fun a => Fin.ext (by
    match a with
    | ⟨0, _⟩ => exact rhs_qk_0 _ _
    | ⟨1, _⟩ => exact (rhs_qk_1 _ _).trans hk)
  rw [el, er]

/-- Weights against data rows: the left operand's row is the result's row … -/
theorem lhs_pv_0 (i : S128x3072.Idx) (q : dot_S128x1024_S1024x3072_S128x3072_1_0_0_1_n_n.contr.Idx) :
    (dot_S128x1024_S1024x3072_S128x3072_1_0_0_1_n_n.lhsIdx i q 0).val = (i 0).val := by
  unfold DotDims.lhsIdx
  rw [dif_neg (show ¬(0 : Fin S128x1024.rank) ∈ dot_S128x1024_S1024x3072_S128x3072_1_0_0_1_n_n.lhsBatch by decide), dif_pos (show (0 : Fin S128x1024.rank) ∈ dot_S128x1024_S1024x3072_S128x3072_1_0_0_1_n_n.lhsNonContracting by decide)]
  rfl
/-- … its column the contraction coordinate; -/
theorem lhs_pv_1 (i : S128x3072.Idx) (q : dot_S128x1024_S1024x3072_S128x3072_1_0_0_1_n_n.contr.Idx) :
    (dot_S128x1024_S1024x3072_S128x3072_1_0_0_1_n_n.lhsIdx i q 1).val = (q ⟨0, by decide⟩).val :=
  dot_S128x1024_S1024x3072_S128x3072_1_0_0_1_n_n.lhsIdx_val_of_single rfl i q
/-- the right operand's row is the contraction coordinate … -/
theorem rhs_pv_0 (i : S128x3072.Idx) (q : dot_S128x1024_S1024x3072_S128x3072_1_0_0_1_n_n.contr.Idx) :
    (dot_S128x1024_S1024x3072_S128x3072_1_0_0_1_n_n.rhsIdx i q 0).val = (q ⟨0, by decide⟩).val :=
  dot_S128x1024_S1024x3072_S128x3072_1_0_0_1_n_n.rhsIdx_val_of_single rfl i q
/-- … and its column the result's column. -/
theorem rhs_pv_1 (i : S128x3072.Idx) (q : dot_S128x1024_S1024x3072_S128x3072_1_0_0_1_n_n.contr.Idx) :
    (dot_S128x1024_S1024x3072_S128x3072_1_0_0_1_n_n.rhsIdx i q 1).val = (i 1).val := by
  unfold DotDims.rhsIdx
  rw [dif_neg (show ¬(1 : Fin S1024x3072.rank) ∈ dot_S128x1024_S1024x3072_S128x3072_1_0_0_1_n_n.rhsBatch by decide), dif_pos (show (1 : Fin S1024x3072.rank) ∈ dot_S128x1024_S1024x3072_S128x3072_1_0_0_1_n_n.rhsNonContracting by decide)]
  rfl

/-- The product of a weight block with the data block, into zero: entry (p, d) is the weights of row p against
    column d of the data rows. -/
theorem pv_apply (w : FVec Ideal S128x1024 .f32) (x4 : FVec Ideal S1024x3072 .f32) (p : Fin 128) (d : Fin 3072) :
    matmul (F := Ideal) dot_S128x1024_S1024x3072_S128x3072_1_0_0_1_n_n (some .fp32) w x4 (constant (F := Ideal) S128x3072 .f32 0x00000000#32) (ix2 p d)
      = ∑ q : Fin 1024, w (ix2 p q) * x4 (ix2 q d) := by
  simp only [matmul]
  rw [Ideal.matmul_constant_zero_apply, ← Equiv.sum_comp (contrEquiv1 dot_S128x1024_S1024x3072_S128x3072_1_0_0_1_n_n 1024 rfl rfl).symm]
  refine Finset.sum_congr rfl fun k _ => ?_
  have hk := contrEquiv1_symm_val dot_S128x1024_S1024x3072_S128x3072_1_0_0_1_n_n 1024 rfl rfl k
  have el : dot_S128x1024_S1024x3072_S128x3072_1_0_0_1_n_n.lhsIdx (ix2 p d) ((contrEquiv1 dot_S128x1024_S1024x3072_S128x3072_1_0_0_1_n_n 1024 rfl rfl).symm k) = ix2 p k := funext fun a => Fin.ext (by
    match a with
    | ⟨0, _⟩ => exact lhs_pv_0 _ _
    | ⟨1, _⟩ => exact (lhs_pv_1 _ _).trans hk)
  have er : dot_S128x1024_S1024x3072_S128x3072_1_0_0_1_n_n.rhsIdx (ix2 p d) ((contrEquiv1 dot_S128x1024_S1024x3072_S128x3072_1_0_0_1_n_n 1024 rfl rfl).symm k) = ix2 k d := funext fun a => Fin.ext (by
    match a with
    | ⟨0, _⟩ => exact (rhs_pv_0 _ _).trans hk
    | ⟨1, _⟩ => exact rhs_pv_1 _ _)
  rw [el, er]

/-- The block's logits: entry (p, q) is the logit of query row p against data row q. -/
theorem logits_apply (x0 x1 x2 : Vec Ideal S128x1 .f32) (x3 : Vec Ideal S128x3072 .f32) (x4 : Vec Ideal S1024x3072 .f32)
    (p : Fin 128) (q : Fin 1024) :
    k0_pay1 (F := Ideal) (k0_pay12 x3 x4 x0 x1 x2) k0_pay13 (ix2 p q)
      = Cert.Spec.logitQuot (x0 (ix2 p 0)) (x1 (ix2 p 0)) (x2 (ix2 p 0))
          (∑ k : Fin 3072, x3 (ix2 p k) * x3 (ix2 p k)) (∑ k : Fin 3072, x3 (ix2 p k) * x4 (ix2 q k))
          (∑ k : Fin 3072, x4 (ix2 q k) * x4 (ix2 q k)) := by
  unfold k0_pay1 k0_pay12 k0_pay13 Cert.Spec.logitQuot
  simp only [shapeCast_self]
  have exy := qk_apply x3 x4 p q
  have exx : broadcastTo S128x1024 (shapeCast S128x1 (multiReduction (F := Ideal) .add [1] S128 (mulf (F := Ideal) (φ := .f32) x3 x3)
      0x00000000#32 reduces_S128x3072_S128 (.inl rfl) rfl) shapeCasts_S128_S128x1) broadcasts_S128x1_S128x1024 (ix2 p q)
      = ∑ k : Fin 3072, x3 (ix2 p k) * x3 (ix2 p k) :=
    (broadcastTo_a1_ab_apply _ broadcasts_S128x1_S128x1024 p q).trans
      ((shapeCast_a_a1_apply _ shapeCasts_S128_S128x1 p 0).trans
        (laneSum_apply (mulf (F := Ideal) (φ := .f32) x3 x3) _ _ _ p))
  have eyy : broadcastTo S128x1024 (shapeCast S1x1024 (multiReduction (F := Ideal) .add [1] S1024 (mulf (F := Ideal) (φ := .f32) x4 x4)
      0x00000000#32 reduces_S1024x3072_S1024 (.inl rfl) rfl) shapeCasts_S1024_S1x1024) broadcasts_S1x1024_S128x1024 (ix2 p q)
      = ∑ k : Fin 3072, x4 (ix2 q k) * x4 (ix2 q k) :=
    (broadcastTo_1b_ab_apply _ broadcasts_S1x1024_S128x1024 p q).trans
      ((shapeCast_a_1a_apply _ shapeCasts_S1024_S1x1024 0 q).trans
        (laneSum_apply (mulf (F := Ideal) (φ := .f32) x4 x4) _ _ _ q))
  have e0 : broadcastTo S128x1024 x0 broadcasts_S128x1_S128x1024 (ix2 p q) = x0 (ix2 p 0) :=
    broadcastTo_a1_ab_apply x0 broadcasts_S128x1_S128x1024 p q
  have e1 : broadcastTo S128x1024 x1 broadcasts_S128x1_S128x1024 (ix2 p q) = x1 (ix2 p 0) :=
    broadcastTo_a1_ab_apply x1 broadcasts_S128x1_S128x1024 p q
  have e2 : broadcastTo S128x1024 (mulf (F := Ideal) (φ := .f32) (broadcast S128x1 (Scalar.ofBits .f32 0x40000000#32)) x2)
      broadcasts_S128x1_S128x1024 (ix2 p q) = Ideal.ofBits .f32 0x40000000#32 * x2 (ix2 p 0) :=
    broadcastTo_a1_ab_apply _ broadcasts_S128x1_S128x1024 p q
  have el : broadcastTo S128x1024 (mulf (F := Ideal) (φ := .f32) (broadcast S128x1 (Scalar.ofBits .f32 0x44C00000#32))
      (log (F := Ideal) (φ := .f32) x1)) broadcasts_S128x1_S128x1024 (ix2 p q)
      = Ideal.ofBits .f32 0x44C00000#32 * Ideal.log (x1 (ix2 p 0)) :=
    broadcastTo_a1_ab_apply _ broadcasts_S128x1_S128x1024 p q
  simp only [subf_apply, addf_apply, mulf_apply, divf_apply, broadcast_apply]
  rw [el, exx, e2, exy, e0, eyy, e1]
  simp only [Ideal.ofBits_def, Ideal.ofBits_zero_f32, zero_sub]

/-- The new running maximum of row p: the old one against the block's row maximum. -/
theorem max_apply (v36 v37 : FVec Ideal S128x1024 .f32) (mp : Vec Ideal S128x1 .f32) (p : Fin 128) :
    k0_pay2 (F := Ideal) v36 v37 mp (ix2 p 0)
      = max (mp (ix2 p 0)) (Finset.univ.sup fun q : Fin 1024 => k0_pay1 (F := Ideal) v36 v37 (ix2 p q)) := by
  unfold k0_pay2
  refine congrArg (max (mp (ix2 p 0))) ?_
  refine (shapeCast_a_a1_apply _ shapeCasts_S128_S128x1 p 0).trans ?_
  exact laneMax_apply (k0_pay1 (F := Ideal) v36 v37) _ _ _ p

/-- The value stored as the running maximum is that maximum (the cast between equal shapes is the identity). -/
theorem max_stored (v36 v37 : FVec Ideal S128x1024 .f32) (mp : Vec Ideal S128x1 .f32) :
    k0_pay7 (F := Ideal) v36 v37 mp = k0_pay2 (F := Ideal) v36 v37 mp := by
  unfold k0_pay7
  exact shapeCast_self _ _

/-- The rescaling factor of row p: exp (old maximum − new maximum). -/
theorem corr_apply (v36 v37 : FVec Ideal S128x1024 .f32) (mp : Vec Ideal S128x1 .f32) (p : Fin 128) :
    k0_pay3 (F := Ideal) v36 v37 mp (ix2 p 0)
      = Ideal.exp (mp (ix2 p 0) - k0_pay2 (F := Ideal) v36 v37 mp (ix2 p 0)) := by
  unfold k0_pay3
  rfl

/-- The block's unnormalised weights: exp (logit − new maximum). -/
theorem weight_apply (v36 v37 : FVec Ideal S128x1024 .f32) (mp : Vec Ideal S128x1 .f32) (p : Fin 128) (q : Fin 1024) :
    k0_pay4 (F := Ideal) v36 v37 mp (ix2 p q)
      = Ideal.exp (k0_pay1 (F := Ideal) v36 v37 (ix2 p q) - k0_pay2 (F := Ideal) v36 v37 mp (ix2 p 0)) := by
  unfold k0_pay4
  refine congrArg (fun t => Ideal.exp (k0_pay1 (F := Ideal) v36 v37 (ix2 p q) - t)) ?_
  exact broadcastTo_a1_ab_apply _ broadcasts_S128x1_S128x1024 p q

/-- The new denominator of row p: the old one rescaled plus the block's weights summed. -/
theorem den_apply (v36 v37 : FVec Ideal S128x1024 .f32) (mp lp : Vec Ideal S128x1 .f32) (p : Fin 128) :
    k0_pay5 (F := Ideal) v36 v37 mp lp (ix2 p 0)
      = k0_pay3 (F := Ideal) v36 v37 mp (ix2 p 0) * lp (ix2 p 0)
          + ∑ q : Fin 1024, k0_pay4 (F := Ideal) v36 v37 mp (ix2 p q) := by
  unfold k0_pay5
  rw [shapeCast_self]
  refine congrArg (k0_pay3 (F := Ideal) v36 v37 mp (ix2 p 0) * lp (ix2 p 0) + ·) ?_
  refine (shapeCast_a_a1_apply _ shapeCasts_S128_S128x1 p 0).trans ?_
  exact laneSum_apply (k0_pay4 (F := Ideal) v36 v37 mp) _ _ _ p

/-- The new weighted sum at (p, d): the old one rescaled plus the block's weights against the data rows' column d. -/
theorem acc_apply (x4 : Vec Ideal S1024x3072 .f32) (v36 v37 : FVec Ideal S128x1024 .f32) (mp : Vec Ideal S128x1 .f32)
    (ap : Vec Ideal S128x3072 .f32) (p : Fin 128) (d : Fin 3072) :
    k0_pay6 (F := Ideal) x4 v36 v37 mp ap (ix2 p d)
      = k0_pay3 (F := Ideal) v36 v37 mp (ix2 p 0) * ap (ix2 p d)
          + ∑ q : Fin 1024, k0_pay4 (F := Ideal) v36 v37 mp (ix2 p q) * x4 (ix2 q d) := by
  unfold k0_pay6
  rw [shapeCast_self]
  have e1 : broadcastTo S128x3072 (k0_pay3 (F := Ideal) v36 v37 mp) broadcasts_S128x1_S128x3072 (ix2 p d)
      = k0_pay3 (F := Ideal) v36 v37 mp (ix2 p 0) :=
    broadcastTo_a1_ab_apply (k0_pay3 (F := Ideal) v36 v37 mp) broadcasts_S128x1_S128x3072 p d
  have e2 := pv_apply (k0_pay4 (F := Ideal) v36 v37 mp) x4 p d
  show broadcastTo S128x3072 (k0_pay3 (F := Ideal) v36 v37 mp) broadcasts_S128x1_S128x3072 (ix2 p d) * ap (ix2 p d)
      + matmul (F := Ideal) dot_S128x1024_S1024x3072_S128x3072_1_0_0_1_n_n (some .fp32) (k0_pay4 (F := Ideal) v36 v37 mp) x4
          (constant (F := Ideal) S128x3072 .f32 0x00000000#32) (ix2 p d) = _
  rw [e1, e2]

/-- The output block at (p, d): (x − √alpha · (weighted sum / denominator)) / √variance. -/
theorem out_apply (acc : Vec Ideal S128x3072 .f32) (l : Vec Ideal S128x1 .f32) (x3 : Vec Ideal S128x3072 .f32)
    (x2 x1 : Vec Ideal S128x1 .f32) (p : Fin 128) (d : Fin 3072) :
    k0_pay8 (F := Ideal) acc l x3 x2 x1 (ix2 p d)
      = Ideal.div (x3 (ix2 p d) - x2 (ix2 p 0) * Ideal.div (acc (ix2 p d)) (l (ix2 p 0))) (Ideal.sqrt (x1 (ix2 p 0))) := by
  unfold k0_pay8
  rw [shapeCast_self, shapeCast_self]
  have e1 : broadcastTo S128x3072 l broadcasts_S128x1_S128x3072 (ix2 p d) = l (ix2 p 0) :=
    broadcastTo_a1_ab_apply l broadcasts_S128x1_S128x3072 p d
  have e2 : broadcastTo S128x3072 x2 broadcasts_S128x1_S128x3072 (ix2 p d) = x2 (ix2 p 0) :=
    broadcastTo_a1_ab_apply x2 broadcasts_S128x1_S128x3072 p d
  have e3 : broadcastTo S128x3072 (sqrt (F := Ideal) (φ := .f32) x1) broadcasts_S128x1_S128x3072 (ix2 p d) = Ideal.sqrt (x1 (ix2 p 0)) :=
    broadcastTo_a1_ab_apply (sqrt (F := Ideal) (φ := .f32) x1) broadcasts_S128x1_S128x3072 p d
  show Ideal.div (x3 (ix2 p d) - broadcastTo S128x3072 x2 broadcasts_S128x1_S128x3072 (ix2 p d)
      * Ideal.div (acc (ix2 p d)) (broadcastTo S128x3072 l broadcasts_S128x1_S128x3072 (ix2 p d)))
      (broadcastTo S128x3072 (sqrt (F := Ideal) (φ := .f32) x1) broadcasts_S128x1_S128x3072 (ix2 p d)) = _
  rw [e1, e2, e3]

/-- The reset values: weighted sum 0, maximum ⊥, denominator 0. -/
theorem acc_init (i : S128x3072.Idx) : k0_pay9 (F := Ideal) i = 0 := by
  unfold k0_pay9
  rw [shapeCast_self]
  exact Ideal.ofBits_zero_f32
theorem max_init (i : S128x1.Idx) : k0_pay10 (F := Ideal) i = ⊥ := by
  unfold k0_pay10
  rw [shapeCast_self]
  exact ofBits_negInf_f32
theorem den_init (i : S128x1.Idx) : k0_pay11 (F := Ideal) i = 0 := by
  unfold k0_pay11
  rw [shapeCast_self]
  exact Ideal.ofBits_zero_f32

end Cert.KernelIdeal.Step

end
-- ==== Proof.OnlineSoftmax.lean ====
/-
  The online (blockwise, rescaled) softmax against the plain softmax, over the reals.

  For logits z 0, z 1, … the running maximum over a prefix is taken in the extended reals (the empty prefix has
  maximum ⊥); over a nonempty prefix it is a real, mx z k. The denominator over the prefix is
  den z k = ∑_{n<k} exp (z n − mx z k) and the weighted numerator num z y k = ∑_{n<k} exp (z n − mx z k) · y n.
  A block of K further logits rescales both by exp (mx z k − mx z (k+K)) and adds the block's own terms.
-/
import Idealize.ShloMosaic.PureOps.Ideal

noncomputable section

namespace OnlineSoftmax

open Finset

variable (z : ℕ → ℝ) (y : ℕ → ℝ)

/-- The maximum of the first k logits, as an extended real (⊥ for k = 0). -/
def supE (k : ℕ) : EReal := (range k).sup fun n => (z n : EReal)

theorem supE_zero : supE z 0 = ⊥ := by simp [supE]

/-- A further block of K logits joins the running maximum by one max. -/
theorem supE_add (k K : ℕ) :
    supE z (k + K) = max (supE z k) ((range K).sup fun q => (z (k + q) : EReal)) := by
  unfold supE
  rw [Finset.range_add_eq_union, Finset.sup_union, Finset.sup_map]
  rfl

/-- Over a nonempty prefix the maximum is one of the logits, so a real. -/
theorem supE_mem {k : ℕ} (hk : 0 < k) : ∃ n, n < k ∧ supE z k = (z n : EReal) := by
  obtain ⟨n, hn, h⟩ := Finset.exists_mem_eq_sup (range k) ⟨0, mem_range.2 hk⟩ (fun n => (z n : EReal))
  exact ⟨n, mem_range.1 hn, h⟩

/-- The running maximum as a real (meaningful for k > 0). -/
def mx (k : ℕ) : ℝ := (supE z k).toReal

theorem supE_eq_coe {k : ℕ} (hk : 0 < k) : supE z k = (mx z k : EReal) := by
  obtain ⟨n, -, h⟩ := supE_mem z hk
  unfold mx; rw [h]; rfl

theorem le_mx {k n : ℕ} (hn : n < k) : z n ≤ mx z k := by
  have hk : 0 < k := lt_of_le_of_lt (Nat.zero_le _) hn
  have h : (z n : EReal) ≤ supE z k := Finset.le_sup (f := fun n => (z n : EReal)) (mem_range.2 hn)
  rw [supE_eq_coe z hk] at h
  exact_mod_cast h

/-- The softmax denominator over the first k logits, relative to their maximum. -/
def den (k : ℕ) : ℝ := ∑ n ∈ range k, Real.exp (z n - mx z k)

/-- The weighted numerator over the first k logits. -/
def num (k : ℕ) : ℝ := ∑ n ∈ range k, Real.exp (z n - mx z k) * y n

theorem den_pos {k : ℕ} (hk : 0 < k) : 0 < den z k :=
  Finset.sum_pos (fun _ _ => Real.exp_pos _) ⟨0, mem_range.2 hk⟩

/-- Rescaling: exp (a − b) · ∑ exp (z n − a) · w n = ∑ exp (z n − b) · w n. -/
theorem rescale (s : Finset ℕ) (w : ℕ → ℝ) (a b : ℝ) :
    Real.exp (a - b) * ∑ n ∈ s, Real.exp (z n - a) * w n = ∑ n ∈ s, Real.exp (z n - b) * w n := by
  rw [Finset.mul_sum]
  refine Finset.sum_congr rfl fun n _ => ?_
  rw [← mul_assoc, ← Real.exp_add]
  congr 2; ring

/-- One block step of the numerator. -/
theorem num_add (k K : ℕ) :
    Real.exp (mx z k - mx z (k + K)) * num z y k
      + ∑ q ∈ range K, Real.exp (z (k + q) - mx z (k + K)) * y (k + q) = num z y (k + K) := by
  unfold num
  rw [rescale, Finset.sum_range_add]

/-- One block step of the denominator. -/
theorem den_add (k K : ℕ) :
    Real.exp (mx z k - mx z (k + K)) * den z k
      + ∑ q ∈ range K, Real.exp (z (k + q) - mx z (k + K)) = den z (k + K) := by
  have h := num_add z (fun _ => 1) k K
  simpa [num, den] using h

/-- The first block: numerator and denominator are the block's own sums. -/
theorem num_first (K : ℕ) : ∑ q ∈ range K, Real.exp (z (0 + q) - mx z (0 + K)) * y (0 + q) = num z y (0 + K) := by
  simp [num]

theorem den_first (K : ℕ) : ∑ q ∈ range K, Real.exp (z (0 + q) - mx z (0 + K)) = den z (0 + K) := by
  simp [den]

/-- The quotient of the accumulated numerator by the accumulated denominator is the softmax-weighted sum. -/
theorem num_div_den (k : ℕ) :
    num z y k / den z k = ∑ n ∈ range k, Real.exp (z n - mx z k) / den z k * y n := by
  unfold num
  rw [Finset.sum_div]
  refine Finset.sum_congr rfl fun n _ => ?_
  ring

end OnlineSoftmax

end
-- ==== Proof.LibERealCoe.lean ====
/-
  Extended reals that are reals.  The exact operations on coerced reals are the coerced real operations: finite
  sums, the quotient by a nonzero real, the exponential, the logarithm of a positive real, the square root of a
  nonnegative real; a finite maximum indexed by Fin K is the maximum over range K.
-/
import Idealize.ShloMosaic.PureOps.Ideal

noncomputable section

namespace ERealCoe

open Finset Idealize.ShloMosaic

/-- A finite sum of coerced reals is the coerced sum. -/
theorem coe_sum {ι : Type*} (s : Finset ι) (f : ι → ℝ) :
    ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The exact quotient of two reals, the divisor nonzero, is the real quotient. -/
theorem div_coe_coe (a b : ℝ) (hb : b ≠ 0) : Ideal.div (a : EReal) (b : EReal) = ((a / b : ℝ) : EReal) := by
  rw [Ideal.div_coe hb, ← EReal.coe_mul]; congr 1; ring

/-- The exact logarithm of a positive real. -/
theorem log_coe_pos (v : ℝ) (hv : 0 < v) : Ideal.log (v : EReal) = (Real.log v : EReal) := by
  rw [Ideal.log_coe, if_neg (not_le.2 hv)]

/-- The exact square root of a nonnegative real. -/
theorem sqrt_coe_nonneg (a : ℝ) (ha : 0 ≤ a) : Ideal.sqrt (a : EReal) = (Real.sqrt a : EReal) := by
  rw [Ideal.sqrt_coe, if_neg (not_lt.2 ha)]

/-- A supremum indexed by Fin K of a function of the index's value is the supremum over range K. -/
theorem sup_fin_eq_range {α : Type*} [SemilatticeSup α] [OrderBot α] (K : ℕ) (g : ℕ → α) :
    (univ : Finset (Fin K)).sup (fun q => g q.val) = (range K).sup g := by
  apply le_antisymm
  · exact Finset.sup_le fun q _ => Finset.le_sup (f := g) (mem_range.2 q.isLt)
  · exact Finset.sup_le fun n hn => Finset.le_sup (f := fun q : Fin K => g q.val) (mem_univ ⟨n, mem_range.1 hn⟩)

/-- A sum indexed by Fin K of a function of the index's value is the sum over range K. -/
theorem sum_fin_eq_range {β : Type*} [AddCommMonoid β] (K : ℕ) (g : ℕ → β) :
    ∑ q : Fin K, g q.val = ∑ n ∈ range K, g n := Fin.sum_univ_eq_sum_range g K

end ERealCoe

end
-- ==== Proof.RowStep.lean ====
/-
  One grid step of one query row, over the reals.  If before the step the row's running maximum is the maximum of the
  first k logits (⊥ for k = 0), its denominator and weighted sums are those of the first k logits (0 for k = 0), and
  the block's logits and data rows are the next 1024, then after the step they are those of the first k + 1024.
-/
import proofs.«167547_j90323162235656_1_alg».proof.Proof.KernelStep
import proofs.«167547_j90323162235656_1_alg».proof.Proof.OnlineSoftmax
import proofs.«167547_j90323162235656_1_alg».proof.Proof.LibERealCoe

noncomputable section

namespace Cert.KernelIdeal.RowStep

open Cert.KernelIdeal Cert.KernelIdeal.Gen Idealize.ShloMosaic Idealize.ShloMosaic.ValueIdx OnlineSoftmax Finset

variable (z : ℕ → ℝ) (k : ℕ)

/-- The rescaling factor against a real w that is 0 when nothing came before: exp (old max − new max) · w, the old
    maximum ⊥ (so the factor 0) when k = 0. -/
theorem corr_mul (m' w : ℝ) (hw : k = 0 → w = 0) :
    Ideal.exp (supE z k - (m' : EReal)) * (w : EReal) = ((Real.exp (mx z k - m') * w : ℝ) : EReal) := by
  rcases Nat.eq_zero_or_pos k with rfl | hk
  · rw [supE_zero, EReal.bot_sub, Ideal.exp_bot, zero_mul, hw rfl, mul_zero, EReal.coe_zero]
  · rw [supE_eq_coe z hk, ← EReal.coe_sub, Ideal.exp_coe, ← EReal.coe_mul]

variable (v36 v37 : FVec Ideal S128x1024 .f32) (x4 : Vec Ideal S1024x3072 .f32) (mp lp : Vec Ideal S128x1 .f32)
  (ap : Vec Ideal S128x3072 .f32) (p : Fin 128) (yv : ℕ → Fin 3072 → ℝ)

/-- The new running maximum. -/
theorem max_step (hlog : ∀ q : Fin 1024, k0_pay1 (F := Ideal) v36 v37 (ix2 p q) = (z (k + q.val) : EReal))
    (hmp : mp (ix2 p 0) = supE z k) :
    k0_pay2 (F := Ideal) v36 v37 mp (ix2 p 0) = (mx z (k + 1024) : EReal) := by
  rw [Step.max_apply, hmp, ← supE_eq_coe z (by omega : 0 < k + 1024), supE_add]
  congr 1
  rw [← ERealCoe.sup_fin_eq_range 1024 (fun n => (z (k + n) : EReal))]
  exact Finset.sup_congr rfl fun q _ => hlog q

/-- The block's weights are the exponentials of the next logits against the new maximum. -/
theorem weight_step (hlog : ∀ q : Fin 1024, k0_pay1 (F := Ideal) v36 v37 (ix2 p q) = (z (k + q.val) : EReal))
    (hmp : mp (ix2 p 0) = supE z k) (q : Fin 1024) :
    k0_pay4 (F := Ideal) v36 v37 mp (ix2 p q) = ((Real.exp (z (k + q.val) - mx z (k + 1024)) : ℝ) : EReal) := by
  rw [Step.weight_apply, hlog, max_step z k v36 v37 mp p hlog hmp, ← EReal.coe_sub, Ideal.exp_coe]

/-- The new denominator. -/
theorem den_step (hlog : ∀ q : Fin 1024, k0_pay1 (F := Ideal) v36 v37 (ix2 p q) = (z (k + q.val) : EReal))
    (hmp : mp (ix2 p 0) = supE z k) (hlp : lp (ix2 p 0) = (den z k : EReal)) :
    k0_pay5 (F := Ideal) v36 v37 mp lp (ix2 p 0) = (den z (k + 1024) : EReal) := by
  rw [Step.den_apply, Step.corr_apply, hmp, max_step z k v36 v37 mp p hlog hmp, hlp,
    corr_mul z k _ _ (fun h => by subst h; simp [den])]
  rw [Finset.sum_congr rfl fun q _ => weight_step z k v36 v37 mp p hlog hmp q, ERealCoe.coe_sum,
    ERealCoe.sum_fin_eq_range 1024 (fun n => Real.exp (z (k + n) - mx z (k + 1024))), ← EReal.coe_add, den_add]

/-- The new weighted sum at column d. -/
theorem num_step (hlog : ∀ q : Fin 1024, k0_pay1 (F := Ideal) v36 v37 (ix2 p q) = (z (k + q.val) : EReal))
    (hy : ∀ (q : Fin 1024) (d : Fin 3072), x4 (ix2 q d) = (yv (k + q.val) d : EReal))
    (hmp : mp (ix2 p 0) = supE z k) (d : Fin 3072)
    (hap : ap (ix2 p d) = (num z (fun n => yv n d) k : EReal)) :
    k0_pay6 (F := Ideal) x4 v36 v37 mp ap (ix2 p d) = (num z (fun n => yv n d) (k + 1024) : EReal) := by
  rw [Step.acc_apply, Step.corr_apply, hmp, max_step z k v36 v37 mp p hlog hmp, hap,
    corr_mul z k _ _ (fun h => by subst h; simp [num])]
  rw [Finset.sum_congr rfl fun q _ => by
      rw [weight_step z k v36 v37 mp p hlog hmp q, hy q d, ← EReal.coe_mul],
    ERealCoe.coe_sum,
    ERealCoe.sum_fin_eq_range 1024 (fun n => Real.exp (z (k + n) - mx z (k + 1024)) * yv (k + n) d), ← EReal.coe_add,
    num_add z (fun n => yv n d)]

end Cert.KernelIdeal.RowStep

end
-- ==== Proof.BlockReads.lean ====
/-
  The blocks a grid step is handed, read at an index.  Step t works on query-row block t / 16 (128 rows) and
  data-row block t % 16 (1024 rows): entry (p, ·) of a query-side block is row 128·(t/16) + p of its array, entry
  (q, ·) of the data block is row 1024·(t%16) + q of the data array.
-/
import proofs.«167547_j90323162235656_1_alg».proof.Proof.Gen.KernelIdeal.Frame
import Idealize.ShloMosaic.Lib.ValueIdx
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The windows' block indices at step t, decided over the 32 steps. -/
theorem idx_facts : ∀ t : Fin cfg0.N,
    win0_0.index t (0 : Fin 2) = t.val / 16 ∧ win0_0.index t (1 : Fin 2) = 0
    ∧ win0_1.index t (0 : Fin 2) = t.val / 16 ∧ win0_1.index t (1 : Fin 2) = 0
    ∧ win0_2.index t (0 : Fin 2) = t.val / 16 ∧ win0_2.index t (1 : Fin 2) = 0
    ∧ win0_3.index t (0 : Fin 2) = t.val / 16 ∧ win0_3.index t (1 : Fin 2) = 0
    ∧ win0_4.index t (0 : Fin 2) = t.val % 16 ∧ win0_4.index t (1 : Fin 2) = 0
    ∧ win0_5.index t (0 : Fin 2) = t.val / 16 ∧ win0_5.index t (1 : Fin 2) = 0 :=
  (by decide +kernel : ∀ t : Fin grid0.N, _)

/-- The query block: row p is row 128·(t/16) + p of the query array. -/
theorem x_blk (c : Dev nD) (t : Fin cfg0.N) (p : Fin 128) (k : Fin 3072) (hb : 128 * (t.val / 16) + p.val < 256) :
    (iblk m c 3 t : Vec F S128x3072 .f32) (ix2 p k)
      = m ((c : Thread nD τ).loc main_arg0) (ix2 ⟨128 * (t.val / 16) + p.val, hb⟩ k) := by
  obtain ⟨-, -, -, -, -, -, e0, e1, -, -, -, -⟩ := idx_facts t
  unfold iblk
  rw [View.read_apply]
  show V m c main_arg0 _ = _
  rw [V_main_arg0]
  congr 1
  funext a
  apply Fin.ext
  match a with
  | ⟨0, _⟩ => show win0_3.index t 0 * 128 + 1 * p.val = 128 * (t.val / 16) + p.val; rw [e0]; omega
  | ⟨1, _⟩ => show win0_3.index t 1 * 3072 + 1 * k.val = k.val; rw [e1]; omega

/-- The data block: row q is row 1024·(t%16) + q of the data array. -/
theorem y_blk (c : Dev nD) (t : Fin cfg0.N) (q : Fin 1024) (k : Fin 3072) (hn : 1024 * (t.val % 16) + q.val < 16384) :
    (iblk m c 4 t : Vec F S1024x3072 .f32) (ix2 q k)
      = m ((c : Thread nD τ).loc main_arg2) (ix2 ⟨1024 * (t.val % 16) + q.val, hn⟩ k) := by
  obtain ⟨-, -, -, -, -, -, -, -, e0, e1, -, -⟩ := idx_facts t
  unfold iblk
  rw [View.read_apply]
  show V m c main_arg2 _ = _
  rw [V_main_arg2]
  congr 1
  funext a
  apply Fin.ext
  match a with
  | ⟨0, _⟩ => show win0_4.index t 0 * 1024 + 1 * q.val = 1024 * (t.val % 16) + q.val; rw [e0]; omega
  | ⟨1, _⟩ => show win0_4.index t 1 * 3072 + 1 * k.val = k.val; rw [e1]; omega

/-- The alpha column's block. -/
theorem a_blk (c : Dev nD) (t : Fin cfg0.N) (p : Fin 128) (hb : 128 * (t.val / 16) + p.val < 256) :
    (iblk m c 0 t : Vec F S128x1 .f32) (ix2 p 0) = V m c main_v19 (ix2 ⟨128 * (t.val / 16) + p.val, hb⟩ 0) := by
  obtain ⟨e0, e1, -, -, -, -, -, -, -, -, -, -⟩ := idx_facts t
  unfold iblk
  rw [View.read_apply]
  show V m c main_v19 _ = _
  congr 1
  funext a
  apply Fin.ext
  match a with
  | ⟨0, _⟩ => show win0_0.index t 0 * 128 + 1 * p.val = 128 * (t.val / 16) + p.val; rw [e0]; omega
  | ⟨1, _⟩ => show win0_0.index t 1 * 1 + 1 * 0 = 0; rw [e1]

/-- The variance column's block. -/
theorem v_blk (c : Dev nD) (t : Fin cfg0.N) (p : Fin 128) (hb : 128 * (t.val / 16) + p.val < 256) :
    (iblk m c 1 t : Vec F S128x1 .f32) (ix2 p 0) = V m c main_v20 (ix2 ⟨128 * (t.val / 16) + p.val, hb⟩ 0) := by
  obtain ⟨-, -, e0, e1, -, -, -, -, -, -, -, -⟩ := idx_facts t
  unfold iblk
  rw [View.read_apply]
  show V m c main_v20 _ = _
  congr 1
  funext a
  apply Fin.ext
  match a with
  | ⟨0, _⟩ => show win0_1.index t 0 * 128 + 1 * p.val = 128 * (t.val / 16) + p.val; rw [e0]; omega
  | ⟨1, _⟩ => show win0_1.index t 1 * 1 + 1 * 0 = 0; rw [e1]

/-- The √alpha column's block. -/
theorem s_blk (c : Dev nD) (t : Fin cfg0.N) (p : Fin 128) (hb : 128 * (t.val / 16) + p.val < 256) :
    (iblk m c 2 t : Vec F S128x1 .f32) (ix2 p 0) = V m c main_v21 (ix2 ⟨128 * (t.val / 16) + p.val, hb⟩ 0) := by
  obtain ⟨-, -, -, -, e0, e1, -, -, -, -, -, -⟩ := idx_facts t
  unfold iblk
  rw [View.read_apply]
  show V m c main_v21 _ = _
  congr 1
  funext a
  apply Fin.ext
  match a with
  | ⟨0, _⟩ => show win0_2.index t 0 * 128 + 1 * p.val = 128 * (t.val / 16) + p.val; rw [e0]; omega
  | ⟨1, _⟩ => show win0_2.index t 1 * 1 + 1 * 0 = 0; rw [e1]

end Cert.KernelIdeal.Blocks

end
-- ==== Proof.HostPrefix.lean ====
/-
  The three columns the kernel call is handed besides the two float inputs — alpha, the variance 1 − alpha and
  √alpha, each reshaped from a vector of 256 to a column — are computed by the same host operations the reference
  computes its vectors with: entry (b, 0) of each column is entry b of the reference's vector.
-/
import proofs.«167547_j90323162235656_1_alg».proof.Proof.Gen.KernelIdeal.Frame
import proofs.«167547_j90323162235656_1_alg».proof.Proof.Gen.ReferenceIdeal.Read
import Idealize.ShloMosaic.Lib.ValueIdx
import Idealize.ShloMosaic.Lib.Pipeline.Value
import Idealize.ShloMosaic.Lib.StableHlo.Run

set_option maxRecDepth 16384

noncomputable section

namespace Cert.KernelIdeal.HostPrefix

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- A vector of n reshaped to an [n, 1] column holds, at (b, u), the vector's entry b: the row-major position of
    (b, u) in the column is b · 1 + u with u = 0, the position of b in the vector. -/
theorem column_apply {n : ℕ} (x : (⟨1, ![n]⟩ : Shape).Idx → EReal)
    (h : (⟨1, ![n]⟩ : Shape).ShapeCasts ⟨2, ![n, 1]⟩) (b : Fin n) (u : Fin 1) :
    shapeCast ⟨2, ![n, 1]⟩ x h (ix2 b u) = x (ix1 b) :=
  shapeCast_apply x h _ _ (by
    have hu : u.val = 0 := by omega
    rw [Shape.rowMajor_val_two, Shape.rowMajor_val_one]
    show b.val = b.val * 1 + u.val
    omega)

/-! ## The columns as whole arrays

The host operations before the kernel call, composed in order, write into each column the reshape of a vector;
that vector is the composition of the very operations (convert, constants broadcast, divide, add, multiply, cosine,
the clip's maximum and minimum, then 1 − · or √·) the reference composes, at the same literal shapes, so the two
terms agree by unfolding. -/

/-- The alpha column is the reference's clipped alpha vector, reshaped. -/
theorem alpha_vec (c : Dev nD) :
    (V (F := Ideal) m c main_v19 : S256x1.Idx → EReal)
      = shapeCast S256x1 (Cert.ReferenceIdeal.Read.val_main_v15 (F := Ideal) (m ((c : Thread nD τ).loc main_arg1)))
          shapeCasts_S256_S256x1 := by
  dsimp only [Gen.V]
  simp only [Gen.hostOps0, Gen.hostOps0_1, Gen.hostOps0_2, List.flatten_cons, List.flatten_nil, List.append_nil,
    List.cons_append, List.nil_append]
  after_results
  rfl

/-- The variance column is the reference's 1 − alpha vector, reshaped. -/
theorem var_vec (c : Dev nD) :
    (V (F := Ideal) m c main_v20 : S256x1.Idx → EReal)
      = shapeCast S256x1 (Cert.ReferenceIdeal.Read.val_main_v17 (F := Ideal) (m ((c : Thread nD τ).loc main_arg1)))
          shapeCasts_S256_S256x1 := by
  dsimp only [Gen.V]
  simp only [Gen.hostOps0, Gen.hostOps0_1, Gen.hostOps0_2, List.flatten_cons, List.flatten_nil, List.append_nil,
    List.cons_append, List.nil_append]
  after_results
  rfl

/-- The √alpha column is the reference's √alpha vector, reshaped. -/
theorem sqrta_vec (c : Dev nD) :
    (V (F := Ideal) m c main_v21 : S256x1.Idx → EReal)
      = shapeCast S256x1 (Cert.ReferenceIdeal.Read.val_main_v18 (F := Ideal) (m ((c : Thread nD τ).loc main_arg1)))
          shapeCasts_S256_S256x1 := by
  dsimp only [Gen.V]
  simp only [Gen.hostOps0, Gen.hostOps0_1, Gen.hostOps0_2, List.flatten_cons, List.flatten_nil, List.append_nil,
    List.cons_append, List.nil_append]
  after_results
  rfl

/-! ## The columns read at (b, 0) -/

/-- The alpha column. -/
theorem V_alpha (c : Dev nD) (b : Fin 256) :
    V (F := Ideal) m c main_v19 (ix2 b 0)
      = Cert.ReferenceIdeal.Read.val_main_v15 (F := Ideal) (m ((c : Thread nD τ).loc main_arg1)) (ix1 b) :=
  (congrFun (alpha_vec m c) (ix2 b 0)).trans (column_apply _ _ b 0)

/-- The variance column. -/
theorem V_var (c : Dev nD) (b : Fin 256) :
    V (F := Ideal) m c main_v20 (ix2 b 0)
      = Cert.ReferenceIdeal.Read.val_main_v17 (F := Ideal) (m ((c : Thread nD τ).loc main_arg1)) (ix1 b) :=
  (congrFun (var_vec m c) (ix2 b 0)).trans (column_apply _ _ b 0)

/-- The √alpha column. -/
theorem V_sqrta (c : Dev nD) (b : Fin 256) :
    V (F := Ideal) m c main_v21 (ix2 b 0)
      = Cert.ReferenceIdeal.Read.val_main_v18 (F := Ideal) (m ((c : Thread nD τ).loc main_arg1)) (ix1 b) :=
  (congrFun (sqrta_vec m c) (ix2 b 0)).trans (column_apply _ _ b 0)

end Cert.KernelIdeal.HostPrefix

end
-- ==== Proof.RefAtIndex.lean ====
/-
  The reference program's result read at an index: the softmax of the logits over all 16384 data rows, the
  probabilities against the data rows' column, scaled by √alpha, subtracted from the query entry, over √variance.
-/
import proofs.«167547_j90323162235656_1_alg».proof.Proof.Gen.ReferenceIdeal.Read
import proofs.«167547_j90323162235656_1_alg».proof.Proof.Spec
import Idealize.ShloMosaic.PureOps.Ideal.Laws
import Idealize.ShloMosaic.Lib.ValueIdx
import Idealize.ShloMosaic.Lib.Pipeline.Value

noncomputable section

namespace Cert.ReferenceIdeal.AtIndex

open Cert.ReferenceIdeal Cert.ReferenceIdeal.Gen Cert.ReferenceIdeal.Read Idealize.ShloMosaic Idealize.ShloMosaic.ValueIdx

variable (x0 : (⟨S256x3072, .f32⟩ : BufTy).Contents (Elt Ideal)) (x1 : (⟨S256, .i32⟩ : BufTy).Contents (Elt Ideal))
  (x2 : (⟨S16384x3072, .f32⟩ : BufTy).Contents (Elt Ideal))

/-- The row index b with the coordinate k put back on the reduced (column) axis is the index (b, k). -/
theorem lift_row (h : S256x16384.Reduces [1] S256) (b : Fin 256) (k : Fin (S256x16384.size 1)) :
    h.lift (ix1 b) k = ix2 b (⟨k.val, k.isLt⟩ : Fin 16384) := by
  funext c
  apply Fin.ext
  match c with
  | ⟨0, _⟩ => rfl
  | ⟨1, _⟩ => rfl

/-- The row maximum: a fold of max from −∞ over the columns, then one more max with −∞, is the supremum of the row. -/
theorem rowmax_apply (b : Fin 256) :
    val_main_v52 (F := Ideal) x0 x1 x2 (ix1 b)
      = Finset.univ.sup fun n' : Fin 16384 => val_main_v49 (F := Ideal) x0 x1 x2 (ix2 b n') := by
  have hbot : Ideal.ofBits .f32 0xFF800000#32 = (⊥ : EReal) := by simp [Ideal.ofBits, Ideal.ieee]
  have hred : S256x16384.Reduces [1] S256 := by decide
  rw [val_main_v52_apply, val_main_v51_apply, val_main_cst_13_apply]
  unfold val_main_v50
  generalize val_main_v49 (F := Ideal) x0 x1 x2 = y
  have hfold := Host.reduce_eq_fold_single (α := Ideal .f32) (FloatOps.maximumf (F := Ideal) (φ := .f32)) y
    (val_main_cst_12 (F := Ideal)) reducesTo_S256x16384_S256_d1 hred h_S_ (ix1 b)
  have hf : (y ∘ hred.lift (ix1 b)) = fun n' : Fin 16384 => y (ix2 b n') :=
    funext fun k => congrArg y (lift_row hred b k)
  rw [hf, val_main_cst_12_apply] at hfold
  refine (congrArg (FloatOps.maximumf (F := Ideal) (FloatOps.ofBits .f32 0xFF800000#32)) hfold).trans ?_
  simp only [Ideal.maximumf_def, Ideal.ofBits_def, hbot]
  rw [max_eq_right bot_le]
  rfl

/-- The shifted exponential at (b, n): the logit less its row's supremum, exponentiated. -/
theorem expshift_apply (b : Fin 256) (n : Fin 16384) :
    val_main_v56 (F := Ideal) x0 x1 x2 (ix2 b n)
      = Ideal.exp (val_main_v49 (F := Ideal) x0 x1 x2 (ix2 b n) - Finset.univ.sup fun n' : Fin 16384 => val_main_v49 (F := Ideal) x0 x1 x2 (ix2 b n')) := by
  have e : idx_main_v53 (idx_main_v54 (ix2 b n)) = ix1 b :=
    funext fun a => Fin.ext (by match a with | ⟨0, _⟩ => rfl)
  rw [val_main_v56_apply, val_main_v55_apply, val_main_v54_apply, val_main_v53_apply, e, rowmax_apply]
  simp only [Ideal.hostUnary_exp_def, Ideal.subf_def]

/-- The softmax denominator of row b: the sum of the shifted exponentials over the columns. -/
theorem denom_apply (b : Fin 256) :
    val_main_v57 (F := Ideal) x0 x1 x2 (ix1 b)
      = ∑ n'' : Fin 16384, Ideal.exp (val_main_v49 (F := Ideal) x0 x1 x2 (ix2 b n'') - Finset.univ.sup fun n' : Fin 16384 => val_main_v49 (F := Ideal) x0 x1 x2 (ix2 b n')) := by
  have e : ∀ k : Fin 16384, idx_main_v57 (ix1 b) k = ix2 b k := fun k =>
    funext fun a => Fin.ext (by match a with | ⟨0, _⟩ => rfl | ⟨1, _⟩ => rfl)
  rw [val_main_v57_apply, val_main_cst_14_apply]
  simp only [e, expshift_apply, Ideal.ofBits_def, Ideal.ofBits_zero_f32, zero_add]

/-- The softmax probability at (b, n): the shifted exponential over the row's denominator. -/
theorem prob_apply (b : Fin 256) (n : Fin 16384) :
    val_main_v60 (F := Ideal) x0 x1 x2 (ix2 b n)
      = Ideal.div (Ideal.exp (val_main_v49 (F := Ideal) x0 x1 x2 (ix2 b n) - Finset.univ.sup fun n' : Fin 16384 => val_main_v49 (F := Ideal) x0 x1 x2 (ix2 b n')))
          (∑ n'' : Fin 16384, Ideal.exp (val_main_v49 (F := Ideal) x0 x1 x2 (ix2 b n'') - Finset.univ.sup fun n' : Fin 16384 => val_main_v49 (F := Ideal) x0 x1 x2 (ix2 b n'))) := by
  have e : idx_main_v58 (idx_main_v59 (ix2 b n)) = ix1 b :=
    funext fun a => Fin.ext (by match a with | ⟨0, _⟩ => rfl)
  rw [val_main_v60_apply, val_main_v59_apply, val_main_v58_apply, e, denom_apply, expshift_apply]
  simp only [Ideal.hostDivf_def]

/-- The variance is one minus alpha. -/
theorem var_apply (b : Fin 256) :
    val_main_v17 (F := Ideal) x1 (ix1 b) = Ideal.ofBits .f32 0x3F800000#32 - val_main_v15 (F := Ideal) x1 (ix1 b) := by
  rw [val_main_v17_apply, val_main_v16_apply, val_main_cst_6_apply]
  simp only [Ideal.subf_def, Ideal.ofBits_def]

/-- The scale is the square root of alpha. -/
theorem sqrta_apply (b : Fin 256) :
    val_main_v18 (F := Ideal) x1 (ix1 b) = Ideal.sqrt (val_main_v15 (F := Ideal) x1 (ix1 b)) := by
  rw [val_main_v18_apply]
  simp only [Ideal.hostUnary_sqrt_def]

/-- Alpha is a clip: the minimum of the upper bound with the maximum of the lower bound and the schedule value. -/
theorem alpha_apply (b : Fin 256) :
    val_main_v15 (F := Ideal) x1 (ix1 b)
      = min (Ideal.ofBits .f32 0x3F7FFF58#32) (max (Ideal.ofBits .f32 0x3727C5AC#32) (val_main_v14 (F := Ideal) x1 (ix1 b))) := by
  rw [val_main_v15_apply, val_main_call0_v4_apply, val_main_call0_v3_apply, val_main_cst_5_apply,
    val_main_call0_v2_apply, val_main_call0_v1_apply, val_main_call0_v0_apply, val_main_cst_4_apply]
  simp only [Ideal.minimumf_def, Ideal.maximumf_def, Ideal.ofBits_def]

/-- The logit of query row b against data row n. -/
theorem logit_apply (b : Fin 256) (n : Fin 16384) :
    val_main_v49 (F := Ideal) x0 x1 x2 (ix2 b n)
      = Cert.Spec.logitRecip (val_main_v15 (F := Ideal) x1 (ix1 b)) (val_main_v17 (F := Ideal) x1 (ix1 b))
          (val_main_v18 (F := Ideal) x1 (ix1 b))
          (∑ k : Fin 3072, x0 (ix2 b k) * x0 (ix2 b k)) (∑ k : Fin 3072, x0 (ix2 b k) * x2 (ix2 n k))
          (∑ k : Fin 3072, x2 (ix2 n k) * x2 (ix2 n k)) := by
  have e39 : idx_main_v39 (idx_main_v47 (ix2 b n)) = ix1 b :=
    funext fun a => Fin.ext (by match a with | ⟨0, _⟩ => rfl)
  have e42 : idx_main_v42 (idx_main_v45 (ix2 b n)) = ix1 b :=
    funext fun a => Fin.ext (by match a with | ⟨0, _⟩ => rfl)
  have e24 : idx_main_v24 (idx_main_v30 (ix2 b n)) = ix1 b :=
    funext fun a => Fin.ext (by match a with | ⟨0, _⟩ => rfl)
  have e25 : idx_main_v25 (idx_main_v28 (ix2 b n)) = ix1 b :=
    funext fun a => Fin.ext (by match a with | ⟨0, _⟩ => rfl)
  have e32 : idx_main_v32 (idx_main_v34 (ix2 b n)) = ix1 b :=
    funext fun a => Fin.ext (by match a with | ⟨0, _⟩ => rfl)
  have e33 : idx_main_v33 (idx_main_v35 (ix2 b n)) = ix1 n :=
    funext fun a => Fin.ext (by match a with | ⟨0, _⟩ => rfl)
  have e20 : ∀ k : Fin 3072, idx_main_v20 (ix1 b) k = ix2 b k := fun k =>
    funext fun a => Fin.ext (by match a with | ⟨0, _⟩ => rfl | ⟨1, _⟩ => rfl)
  have e22 : ∀ k : Fin 3072, idx_main_v22 (ix1 n) k = ix2 n k := fun k =>
    funext fun a => Fin.ext (by match a with | ⟨0, _⟩ => rfl | ⟨1, _⟩ => rfl)
  have el : ∀ k : Fin 3072, lidx_main_v23 (ix2 b n) k = ix2 b k := fun k =>
    funext fun a => Fin.ext (by match a with | ⟨0, _⟩ => rfl | ⟨1, _⟩ => rfl)
  have er : ∀ k : Fin 3072, ridx_main_v23 (ix2 b n) k = ix2 n k := fun k =>
    funext fun a => Fin.ext (by match a with | ⟨0, _⟩ => rfl | ⟨1, _⟩ => rfl)
  rw [val_main_v49_apply, val_main_v48_apply, val_main_v47_apply, val_main_v41_apply, val_main_v40_apply,
    val_main_cst_10_apply, val_main_v39_apply, val_main_v38_apply, val_main_v46_apply, val_main_v45_apply,
    val_main_v44_apply, val_main_v43_apply, val_main_cst_11_apply, val_main_v42_apply, val_main_v37_apply,
    val_main_v31_apply, val_main_v30_apply, val_main_v24_apply, val_main_v20_apply, val_main_cst_7_apply,
    val_main_v29_apply, val_main_v28_apply, val_main_v27_apply, val_main_v26_apply, val_main_cst_9_apply,
    val_main_v25_apply, val_main_v23_apply, val_main_v36_apply, val_main_v34_apply, val_main_v32_apply,
    val_main_v35_apply, val_main_v33_apply, val_main_v22_apply, val_main_cst_8_apply]
  simp only [e39, e42, e24, e25, e32, e33, e20, e22, el, er, val_main_v19_apply, val_main_v21_apply,
    Ideal.hostNegf_def, Ideal.negf_def, Ideal.addf_def, Ideal.subf_def, Ideal.mulf_def, Ideal.hostDivf_def,
    Ideal.hostUnary_log_def, Ideal.ofBits_def, Ideal.ofBits_zero_f32, zero_add, Cert.Spec.logitRecip]

/-- The result at (b, d). -/
theorem out_apply (b : Fin 256) (d : Fin 3072) :
    val_main_v69 (F := Ideal) x0 x1 x2 (ix2 b d)
      = Ideal.div
          (x0 (ix2 b d) - val_main_v18 (F := Ideal) x1 (ix1 b)
            * ∑ n : Fin 16384,
                Ideal.div
                  (Ideal.exp (val_main_v49 (F := Ideal) x0 x1 x2 (ix2 b n)
                    - Finset.univ.sup fun n' : Fin 16384 => val_main_v49 (F := Ideal) x0 x1 x2 (ix2 b n')))
                  (∑ n'' : Fin 16384, Ideal.exp (val_main_v49 (F := Ideal) x0 x1 x2 (ix2 b n'')
                    - Finset.univ.sup fun n' : Fin 16384 => val_main_v49 (F := Ideal) x0 x1 x2 (ix2 b n')))
                  * x2 (ix2 n d))
          (Ideal.sqrt (val_main_v17 (F := Ideal) x1 (ix1 b))) := by
  have e62 : idx_main_v62 (idx_main_v63 (ix2 b d)) = ix1 b :=
    funext fun a => Fin.ext (by match a with | ⟨0, _⟩ => rfl)
  have e67 : idx_main_v67 (idx_main_v68 (ix2 b d)) = ix1 b :=
    funext fun a => Fin.ext (by match a with | ⟨0, _⟩ => rfl)
  have el : ∀ k : Fin 16384, lidx_main_v61 (ix2 b d) k = ix2 b k := fun k =>
    funext fun a => Fin.ext (by match a with | ⟨0, _⟩ => rfl | ⟨1, _⟩ => rfl)
  have er : ∀ k : Fin 16384, ridx_main_v61 (ix2 b d) k = ix2 k d := fun k =>
    funext fun a => Fin.ext (by match a with | ⟨0, _⟩ => rfl | ⟨1, _⟩ => rfl)
  rw [val_main_v69_apply, val_main_v65_apply, val_main_v64_apply, val_main_v63_apply, val_main_v62_apply, e62,
    val_main_v61_apply, val_main_v68_apply, val_main_v67_apply, e67, val_main_v66_apply]
  simp only [el, er, prob_apply, Ideal.hostDivf_def, Ideal.subf_def, Ideal.mulf_def, Ideal.hostUnary_sqrt_def]

end Cert.ReferenceIdeal.AtIndex

end
-- ==== Proof.RowReal.lean ====
/-
  One query row over the reals.  Under the finiteness of the two float inputs every logit of the row is a real; the
  reference's softmax-weighted sum over all 16384 data rows is the real quotient of the weighted sum of the
  exponentials by their sum, both taken against the row's maximum.
-/
import proofs.«167547_j90323162235656_1_alg».proof.Proof.Gen.ReferenceIdeal.Read
import proofs.«167547_j90323162235656_1_alg».proof.Proof.RefAtIndex
import proofs.«167547_j90323162235656_1_alg».proof.Proof.Scalars
import proofs.«167547_j90323162235656_1_alg».proof.Proof.Spec
import proofs.«167547_j90323162235656_1_alg».proof.Proof.LibERealCoe
import proofs.«167547_j90323162235656_1_alg».proof.Proof.OnlineSoftmax

noncomputable section

namespace Cert.RowReal

open Cert.ReferenceIdeal Cert.ReferenceIdeal.Gen Cert.ReferenceIdeal.Read Idealize.ShloMosaic Idealize.ShloMosaic.ValueIdx
open OnlineSoftmax

/-- With real arguments and a positive variance the logit is a real. -/
theorem logitQuot_real (a v s xx xy yy : ℝ) (hv : 0 < v) :
    ∃ r : ℝ, Cert.Spec.logitQuot (a : EReal) v s xx xy yy = (r : EReal) := by
  refine ⟨-(1536 * Real.log v + (1 / 2 * ((xx - (2 * s) * xy) + a * yy)) / v), ?_⟩
  unfold Cert.Spec.logitQuot
  rw [Cert.Scalars.halfD_eq, Cert.Scalars.half_eq, Cert.Scalars.two_eq, ERealCoe.log_coe_pos v hv]
  simp only [← EReal.coe_mul, ← EReal.coe_sub, ← EReal.coe_add, ERealCoe.div_coe_coe _ _ hv.ne', ← EReal.coe_neg]

/-- The two spellings of the logit agree when the variance is a nonzero real. -/
theorem logitRecip_eq_quot (a s xx xy yy : EReal) (v : ℝ) (hv : v ≠ 0) :
    Cert.Spec.logitRecip a v s xx xy yy = Cert.Spec.logitQuot a v s xx xy yy := by
  unfold Cert.Spec.logitRecip Cert.Spec.logitQuot
  rw [Ideal.div_coe hv, Ideal.div_coe hv, mul_right_comm]

variable (x0 : (⟨S256x3072, .f32⟩ : BufTy).Contents (Elt Ideal)) (x1 : (⟨S256, .i32⟩ : BufTy).Contents (Elt Ideal))
  (x2 : (⟨S16384x3072, .f32⟩ : BufTy).Contents (Elt Ideal))

/-- The row's schedule value alpha, its variance 1 − alpha and its scale √alpha. -/
def alpha (b : Fin 256) : EReal := val_main_v15 (F := Ideal) x1 (ix1 b)
def var (b : Fin 256) : EReal := val_main_v17 (F := Ideal) x1 (ix1 b)
def sqrta (b : Fin 256) : EReal := val_main_v18 (F := Ideal) x1 (ix1 b)

theorem alpha_real (b : Fin 256) : ∃ a : ℝ, 0 < a ∧ a < 1 ∧ alpha x1 b = (a : EReal) := by
  unfold alpha; rw [AtIndex.alpha_apply]; exact Cert.Scalars.clip_real _

theorem var_real (b : Fin 256) {a : ℝ} (ha : alpha x1 b = (a : EReal)) : var x1 b = ((1 - a : ℝ) : EReal) := by
  unfold var; unfold alpha at ha
  rw [AtIndex.var_apply, Cert.Scalars.one_eq, ha, EReal.coe_sub, EReal.coe_one]

theorem sqrta_real (b : Fin 256) {a : ℝ} (h0 : 0 ≤ a) (ha : alpha x1 b = (a : EReal)) :
    sqrta x1 b = ((Real.sqrt a : ℝ) : EReal) := by
  unfold sqrta; unfold alpha at ha
  rw [AtIndex.sqrta_apply, ha, ERealCoe.sqrt_coe_nonneg a h0]

/-- The logit of query row b against data row n. -/
def logitE (b : Fin 256) (n : Fin 16384) : EReal :=
  Cert.Spec.logitQuot (alpha x1 b) (var x1 b) (sqrta x1 b)
    (∑ k : Fin 3072, x0 (ix2 b k) * x0 (ix2 b k)) (∑ k : Fin 3072, x0 (ix2 b k) * x2 (ix2 n k))
    (∑ k : Fin 3072, x2 (ix2 n k) * x2 (ix2 n k))

/-- The row's logits as a sequence of reals (0 outside the arrays). -/
def zr (bn n : ℕ) : ℝ :=
  if h : bn < 256 ∧ n < 16384 then (logitE x0 x1 x2 ⟨bn, h.1⟩ ⟨n, h.2⟩).toReal else 0

/-- The data rows' column d as a sequence of reals (0 outside the array). -/
def yr (n : ℕ) (d : Fin 3072) : ℝ := if h : n < 16384 then (x2 (ix2 ⟨n, h⟩ d)).toReal else 0

theorem logitE_exists (hx : ∀ i, ∃ r : ℝ, x0 i = (r : EReal)) (hy : ∀ i, ∃ r : ℝ, x2 i = (r : EReal))
    (b : Fin 256) (n : Fin 16384) : ∃ r : ℝ, logitE x0 x1 x2 b n = (r : EReal) := by
  obtain ⟨a, ha0, ha1, ha⟩ := alpha_real x1 b
  choose xr hxr using hx
  choose yv hyv using hy
  unfold logitE
  rw [ha, var_real x1 b ha, sqrta_real x1 b ha0.le ha]
  simp only [hxr, hyv, ← EReal.coe_mul, ERealCoe.coe_sum]
  exact logitQuot_real _ _ _ _ _ _ (by linarith)

theorem logitE_real (hx : ∀ i, ∃ r : ℝ, x0 i = (r : EReal)) (hy : ∀ i, ∃ r : ℝ, x2 i = (r : EReal))
    (b : Fin 256) (n : Fin 16384) : logitE x0 x1 x2 b n = (zr x0 x1 x2 b.val n.val : EReal) := by
  obtain ⟨r, hr⟩ := logitE_exists x0 x1 x2 hx hy b n
  unfold zr
  rw [dif_pos ⟨b.isLt, n.isLt⟩]
  show logitE x0 x1 x2 b n = ((logitE x0 x1 x2 b n).toReal : EReal)
  rw [hr, EReal.toReal_coe]

theorem y_real (hy : ∀ i, ∃ r : ℝ, x2 i = (r : EReal)) (n : Fin 16384) (d : Fin 3072) :
    x2 (ix2 n d) = (yr x2 n.val d : EReal) := by
  obtain ⟨r, hr⟩ := hy (ix2 n d)
  unfold yr
  rw [dif_pos n.isLt]
  show x2 (ix2 n d) = ((x2 (ix2 n d)).toReal : EReal)
  rw [hr, EReal.toReal_coe]

/-- The reference's logit is the row's logit. -/
theorem ref_logit (b : Fin 256) (n : Fin 16384) :
    val_main_v49 (F := Ideal) x0 x1 x2 (ix2 b n) = logitE x0 x1 x2 b n := by
  obtain ⟨a, ha0, ha1, ha⟩ := alpha_real x1 b
  rw [AtIndex.logit_apply]
  unfold logitE
  have hv := var_real x1 b ha
  unfold var at hv ⊢
  rw [hv]
  exact logitRecip_eq_quot _ _ _ _ _ _ (by linarith)

/-- The reference's result at (b, d): the query entry minus √alpha times the quotient of the row's weighted sum by
    its denominator, over √variance. -/
theorem ref_out (hx : ∀ i, ∃ r : ℝ, x0 i = (r : EReal)) (hy : ∀ i, ∃ r : ℝ, x2 i = (r : EReal))
    (b : Fin 256) (d : Fin 3072) :
    val_main_v69 (F := Ideal) x0 x1 x2 (ix2 b d)
      = Ideal.div (x0 (ix2 b d) - sqrta x1 b
          * ((num (zr x0 x1 x2 b.val) (fun n => yr x2 n d) 16384 / den (zr x0 x1 x2 b.val) 16384 : ℝ) : EReal))
          (Ideal.sqrt (var x1 b)) := by
  rw [AtIndex.out_apply]
  have hz : ∀ n : Fin 16384, val_main_v49 (F := Ideal) x0 x1 x2 (ix2 b n) = (zr x0 x1 x2 b.val n.val : EReal) :=
    fun n => (ref_logit x0 x1 x2 b n).trans (logitE_real x0 x1 x2 hx hy b n)
  have hsup : (Finset.univ.sup fun n' : Fin 16384 => ((zr x0 x1 x2 b.val n'.val : ℝ) : EReal))
      = (mx (zr x0 x1 x2 b.val) 16384 : EReal) := by
    rw [ERealCoe.sup_fin_eq_range 16384 (fun n => ((zr x0 x1 x2 b.val n : ℝ) : EReal))]
    exact supE_eq_coe _ (by norm_num)
  have hden0 : den (zr x0 x1 x2 b.val) 16384 ≠ 0 := (den_pos _ (by norm_num)).ne'
  have hden : ∑ n'' : Fin 16384, ((Real.exp (zr x0 x1 x2 b.val n''.val - mx (zr x0 x1 x2 b.val) 16384) : ℝ) : EReal)
      = (den (zr x0 x1 x2 b.val) 16384 : EReal) := by
    rw [ERealCoe.coe_sum, ERealCoe.sum_fin_eq_range 16384 (fun n => Real.exp (zr x0 x1 x2 b.val n - mx (zr x0 x1 x2 b.val) 16384))]
    rfl
  simp only [hz, hsup, ← EReal.coe_sub, Ideal.exp_coe, hden, ERealCoe.div_coe_coe _ _ hden0, y_real x2 hy, ← EReal.coe_mul]
  rw [ERealCoe.coe_sum,
    ERealCoe.sum_fin_eq_range 16384 (fun n => Real.exp (zr x0 x1 x2 b.val n - mx (zr x0 x1 x2 b.val) 16384)
      / den (zr x0 x1 x2 b.val) 16384 * yr x2 n d), ← num_div_den]
  rfl

end Cert.RowReal

end
-- ==== Proof.KernelValue.lean ====
/-
  The kernel's result array.  Step t = 16·i + j of the grid works on query rows 128·i … 128·i + 127 and data rows
  1024·j … 1024·j + 1023.  After it, each of those query rows holds in the three carried buffers the maximum, the
  softmax denominator and the weighted sums of its first 1024·(j+1) logits (induction over the steps: the first step
  of a row block starts from the reset values, each later one from what the step before left).  The last step of a
  row block then stores, at (p, d), the query entry minus √alpha times the quotient of the weighted sum by the
  denominator over all 16384 data rows, over √variance: the reference's value at row 128·i + p.
-/
import proofs.«167547_j90323162235656_1_alg».proof.Proof.Gen.KernelIdeal.Value
import proofs.«167547_j90323162235656_1_alg».proof.Proof.KernelPieces
import proofs.«167547_j90323162235656_1_alg».proof.Proof.RowStep
import proofs.«167547_j90323162235656_1_alg».proof.Proof.BlockReads
import proofs.«167547_j90323162235656_1_alg».proof.Proof.HostPrefix
import proofs.«167547_j90323162235656_1_alg».proof.Proof.RowReal

set_option maxRecDepth 16384

noncomputable section

namespace Cert.KernelIdeal.RowValue

open Cert.KernelIdeal Cert.KernelIdeal.Gen Idealize.ShloMosaic Idealize.ShloMosaic.TcCoe Idealize.SL.Sem
open Idealize.ShloMosaic.Pipeline (Dat)
open Idealize.ShloMosaic.ValueIdx OnlineSoftmax

variable (m : (ℓ : Loc nD τ sig) → Buf (Elt Ideal) ℓ) (ρ : Dev nD → PrngReg)

/-- The three input arrays. -/
abbrev X0 (c : Dev nD) : S256x3072.Idx → EReal := m ((c : Thread nD τ).loc main_arg0)
abbrev X1 (c : Dev nD) : S256.Idx → BitVec 32 := m ((c : Thread nD τ).loc main_arg1)
abbrev X2 (c : Dev nD) : S16384x3072.Idx → EReal := m ((c : Thread nD τ).loc main_arg2)

/-- Query row bn's logits and the data rows' column d, as sequences of reals. -/
abbrev zrow (c : Dev nD) (bn : ℕ) : ℕ → ℝ := Cert.RowReal.zr (X0 m c) (X1 m c) (X2 m c) bn
abbrev ycol (c : Dev nD) (n : ℕ) (d : Fin 3072) : ℝ := Cert.RowReal.yr (X2 m c) n d

/-- The blocks step t is handed, at their literal types. -/
abbrev bA (c : Dev nD) (t : Fin cfg0.N) : Vec Ideal S128x1 .f32 := iblk m c 0 t
abbrev bV (c : Dev nD) (t : Fin cfg0.N) : Vec Ideal S128x1 .f32 := iblk m c 1 t
abbrev bS (c : Dev nD) (t : Fin cfg0.N) : Vec Ideal S128x1 .f32 := iblk m c 2 t
abbrev bX (c : Dev nD) (t : Fin cfg0.N) : Vec Ideal S128x3072 .f32 := iblk m c 3 t
abbrev bY (c : Dev nD) (t : Fin cfg0.N) : Vec Ideal S1024x3072 .f32 := iblk m c 4 t
/-- The positive form of step t's logits block (the body negates it). -/
abbrev lg (c : Dev nD) (t : Fin cfg0.N) : FVec Ideal S128x1024 .f32 :=
  k0_pay12 (bX m c t) (bY m c t) (bA m c t) (bV m c t) (bS m c t)

/-- The blocks read at an index (rows of the arrays the step's block indices select). -/
theorem bA_apply (c : Dev nD) (t : Fin cfg0.N) (p : Fin 128) (hb : 128 * (t.val / 16) + p.val < 256) :
    bA m c t (ix2 p 0) = V m c main_v19 (ix2 ⟨128 * (t.val / 16) + p.val, hb⟩ 0) := Blocks.a_blk m c t p hb
theorem bV_apply (c : Dev nD) (t : Fin cfg0.N) (p : Fin 128) (hb : 128 * (t.val / 16) + p.val < 256) :
    bV m c t (ix2 p 0) = V m c main_v20 (ix2 ⟨128 * (t.val / 16) + p.val, hb⟩ 0) := Blocks.v_blk m c t p hb
theorem bS_apply (c : Dev nD) (t : Fin cfg0.N) (p : Fin 128) (hb : 128 * (t.val / 16) + p.val < 256) :
    bS m c t (ix2 p 0) = V m c main_v21 (ix2 ⟨128 * (t.val / 16) + p.val, hb⟩ 0) := Blocks.s_blk m c t p hb
theorem bX_apply (c : Dev nD) (t : Fin cfg0.N) (p : Fin 128) (k : Fin 3072) (hb : 128 * (t.val / 16) + p.val < 256) :
    bX m c t (ix2 p k) = X0 m c (ix2 ⟨128 * (t.val / 16) + p.val, hb⟩ k) := Blocks.x_blk m c t p k hb
theorem bY_apply (c : Dev nD) (t : Fin cfg0.N) (q : Fin 1024) (k : Fin 3072) (hn : 1024 * (t.val % 16) + q.val < 16384) :
    bY m c t (ix2 q k) = X2 m c (ix2 ⟨1024 * (t.val % 16) + q.val, hn⟩ k) := Blocks.y_blk m c t q k hn

/-! ## What a step leaves in the carried buffers, by control case -/

theorem scratch_A (c : Dev nD) (t : Fin cfg0.N) (h0 : t.val % 16 = 0) (h1 : ¬t.val % 16 = 15) :
    (outsAt0 m c t.val t.isLt).2.1 = k0_pay6 (bY m c t) (lg m c t) k0_pay13 (k0_pay10 (F := Ideal)) (k0_pay9 (F := Ideal))
    ∧ (outsAt0 m c t.val t.isLt).2.2.1 = k0_pay7 (lg m c t) k0_pay13 (k0_pay10 (F := Ideal))
    ∧ (outsAt0 m c t.val t.isLt).2.2.2 = k0_pay5 (lg m c t) k0_pay13 (k0_pay10 (F := Ideal)) (k0_pay11 (F := Ideal)) := by
  rw [outsAt0_A m c t h0 h1]; dsimp only
  exact ⟨Pieces.acc_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) (iblk m c 4 t) ((hcond0_0 t).mpr h0) (fun h => h1 ((hcond0_1 t).mp h)),
    Pieces.max_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) (iblk m c 4 t) ((hcond0_0 t).mpr h0) (fun h => h1 ((hcond0_1 t).mp h)),
    Pieces.den_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) (iblk m c 4 t) ((hcond0_0 t).mpr h0) (fun h => h1 ((hcond0_1 t).mp h))⟩

theorem scratch_B (c : Dev nD) (t : Fin cfg0.N) (h0 : ¬t.val % 16 = 0) (h1 : ¬t.val % 16 = 15) :
    (outsAt0 m c t.val t.isLt).2.1 = k0_pay6 (bY m c t) (lg m c t) k0_pay13 (outsAt0 m c (t.val - 1) (Nat.lt_of_le_of_lt (Nat.sub_le _ _) t.isLt)).2.2.1 (outsAt0 m c (t.val - 1) (Nat.lt_of_le_of_lt (Nat.sub_le _ _) t.isLt)).2.1
    ∧ (outsAt0 m c t.val t.isLt).2.2.1 = k0_pay7 (lg m c t) k0_pay13 (outsAt0 m c (t.val - 1) (Nat.lt_of_le_of_lt (Nat.sub_le _ _) t.isLt)).2.2.1
    ∧ (outsAt0 m c t.val t.isLt).2.2.2 = k0_pay5 (lg m c t) k0_pay13 (outsAt0 m c (t.val - 1) (Nat.lt_of_le_of_lt (Nat.sub_le _ _) t.isLt)).2.2.1 (outsAt0 m c (t.val - 1) (Nat.lt_of_le_of_lt (Nat.sub_le _ _) t.isLt)).2.2.2 := by
  rw [outsAt0_B m c t h0 h1]; dsimp only
  exact ⟨Pieces.acc_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) (fun h => h1 ((hcond0_1 t).mp h)),
    Pieces.max_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) (fun h => h1 ((hcond0_1 t).mp h)),
    Pieces.den_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) (fun h => h1 ((hcond0_1 t).mp h))⟩

theorem scratch_C (c : Dev nD) (t : Fin cfg0.N) (h0 : ¬t.val % 16 = 0) (h1 : t.val % 16 = 15) :
    (outsAt0 m c t.val t.isLt).2.1 = k0_pay6 (bY m c t) (lg m c t) k0_pay13 (outsAt0 m c (t.val - 1) (Nat.lt_of_le_of_lt (Nat.sub_le _ _) t.isLt)).2.2.1 (outsAt0 m c (t.val - 1) (Nat.lt_of_le_of_lt (Nat.sub_le _ _) t.isLt)).2.1
    ∧ (outsAt0 m c t.val t.isLt).2.2.1 = k0_pay7 (lg m c t) k0_pay13 (outsAt0 m c (t.val - 1) (Nat.lt_of_le_of_lt (Nat.sub_le _ _) t.isLt)).2.2.1
    ∧ (outsAt0 m c t.val t.isLt).2.2.2 = k0_pay5 (lg m c t) k0_pay13 (outsAt0 m c (t.val - 1) (Nat.lt_of_le_of_lt (Nat.sub_le _ _) t.isLt)).2.2.1 (outsAt0 m c (t.val - 1) (Nat.lt_of_le_of_lt (Nat.sub_le _ _) t.isLt)).2.2.2
    ∧ (outsAt0 m c t.val t.isLt).1 = k0_pay8 (k0_pay6 (bY m c t) (lg m c t) k0_pay13 (outsAt0 m c (t.val - 1) (Nat.lt_of_le_of_lt (Nat.sub_le _ _) t.isLt)).2.2.1 (outsAt0 m c (t.val - 1) (Nat.lt_of_le_of_lt (Nat.sub_le _ _) t.isLt)).2.1)
        (k0_pay5 (lg m c t) k0_pay13 (outsAt0 m c (t.val - 1) (Nat.lt_of_le_of_lt (Nat.sub_le _ _) t.isLt)).2.2.1 (outsAt0 m c (t.val - 1) (Nat.lt_of_le_of_lt (Nat.sub_le _ _) t.isLt)).2.2.2) (bX m c t) (bS m c t) (bV m c t) := by
  rw [outsAt0_C m c t h0 h1]; dsimp only
  exact ⟨Pieces.acc_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1),
    Pieces.max_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1),
    Pieces.den_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1),
    Pieces.out_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1)⟩

/-! ## Step t's blocks are the next 1024 logits and data rows of each of its query rows -/

variable (hx : ∀ (c : Dev nD) (i : S256x3072.Idx), ∃ r : ℝ, X0 m c i = (r : EReal))
  (hy : ∀ (c : Dev nD) (i : S16384x3072.Idx), ∃ r : ℝ, X2 m c i = (r : EReal))

include hx hy in
/-- Entry (p, q) of step t's negated logits block is logit 1024·(t%16) + q of query row 128·(t/16) + p. -/
theorem logits_blk (c : Dev nD) (t : Fin cfg0.N) (p : Fin 128) (q : Fin 1024) :
    k0_pay1 (F := Ideal) (lg m c t) k0_pay13 (ix2 p q)
      = (zrow m c (128 * (t.val / 16) + p.val) (1024 * (t.val % 16) + q.val) : EReal) := by
  have hN : t.val < 32 := lt_of_lt_of_eq t.isLt N_0
  have hb : 128 * (t.val / 16) + p.val < 256 := by omega
  have hn : 1024 * (t.val % 16) + q.val < 16384 := by omega
  refine (Step.logits_apply (bA m c t) (bV m c t) (bS m c t) (bX m c t) (bY m c t) p q).trans ?_
  simp only [bA_apply m c t p hb, bV_apply m c t p hb, bS_apply m c t p hb, bX_apply m c t p _ hb, bY_apply m c t q _ hn]
  rw [HostPrefix.V_alpha m c ⟨128 * (t.val / 16) + p.val, hb⟩, HostPrefix.V_var m c ⟨128 * (t.val / 16) + p.val, hb⟩,
    HostPrefix.V_sqrta m c ⟨128 * (t.val / 16) + p.val, hb⟩]
  exact Cert.RowReal.logitE_real (X0 m c) (X1 m c) (X2 m c) (hx c) (hy c) ⟨128 * (t.val / 16) + p.val, hb⟩
    ⟨1024 * (t.val % 16) + q.val, hn⟩

include hy in
/-- Entry (q, d) of step t's data block is entry d of data row 1024·(t%16) + q. -/
theorem data_blk (c : Dev nD) (t : Fin cfg0.N) (q : Fin 1024) (d : Fin 3072) :
    bY m c t (ix2 q d) = (ycol m c (1024 * (t.val % 16) + q.val) d : EReal) := by
  have hN : t.val < 32 := lt_of_lt_of_eq t.isLt N_0
  have hn : 1024 * (t.val % 16) + q.val < 16384 := by omega
  rw [bY_apply m c t q d hn]
  exact Cert.RowReal.y_real (X2 m c) (hy c) ⟨_, hn⟩ d

include hx hy in
/-- One step of one query row: from the quantities of its first 1024·(t%16) logits to those of its first
    1024·(t%16 + 1). -/
theorem step_at (c : Dev nD) (t : Fin cfg0.N) (p : Fin 128) (mp lp : Vec Ideal S128x1 .f32) (ap : Vec Ideal S128x3072 .f32)
    (hmp : mp (ix2 p 0) = supE (zrow m c (128 * (t.val / 16) + p.val)) (1024 * (t.val % 16)))
    (hlp : lp (ix2 p 0) = (den (zrow m c (128 * (t.val / 16) + p.val)) (1024 * (t.val % 16)) : EReal))
    (hap : ∀ d : Fin 3072, ap (ix2 p d)
      = (num (zrow m c (128 * (t.val / 16) + p.val)) (fun n' => ycol m c n' d) (1024 * (t.val % 16)) : EReal)) :
    k0_pay7 (F := Ideal) (lg m c t) k0_pay13 mp (ix2 p 0)
        = supE (zrow m c (128 * (t.val / 16) + p.val)) (1024 * (t.val % 16 + 1))
    ∧ k0_pay5 (F := Ideal) (lg m c t) k0_pay13 mp lp (ix2 p 0)
        = (den (zrow m c (128 * (t.val / 16) + p.val)) (1024 * (t.val % 16 + 1)) : EReal)
    ∧ ∀ d : Fin 3072, k0_pay6 (F := Ideal) (bY m c t) (lg m c t) k0_pay13 mp ap (ix2 p d)
        = (num (zrow m c (128 * (t.val / 16) + p.val)) (fun n' => ycol m c n' d) (1024 * (t.val % 16 + 1)) : EReal) := by
  have e : 1024 * (t.val % 16 + 1) = 1024 * (t.val % 16) + 1024 := by ring
  rw [e]
  have hlog := fun q : Fin 1024 => logits_blk m hx hy c t p q
  refine ⟨?_, ?_, fun d => ?_⟩
  · rw [Step.max_stored]
    exact (RowStep.max_step _ _ (lg m c t) k0_pay13 mp p hlog hmp).trans (supE_eq_coe _ (by omega)).symm
  · exact RowStep.den_step _ _ (lg m c t) k0_pay13 mp lp p hlog hmp hlp
  · exact RowStep.num_step _ _ (lg m c t) k0_pay13 (bY m c t) mp ap p (fun n' d' => ycol m c n' d') hlog
      (fun q d' => data_blk m hy c t q d') hmp d (hap d)

/-! ## The carried buffers after every step -/

/-- After step n the carried buffers hold, for each query row of its block, the maximum, the denominator and the
    weighted sums of the row's first 1024·(n%16 + 1) logits. -/
def Inv (c : Dev nD) (n : ℕ) (h : n < cfg0.N) : Prop :=
  ∀ p : Fin 128,
    (outsAt0 m c n h).2.2.1 (ix2 p 0) = supE (zrow m c (128 * (n / 16) + p.val)) (1024 * (n % 16 + 1))
    ∧ (outsAt0 m c n h).2.2.2 (ix2 p 0) = (den (zrow m c (128 * (n / 16) + p.val)) (1024 * (n % 16 + 1)) : EReal)
    ∧ ∀ d : Fin 3072, (outsAt0 m c n h).2.1 (ix2 p d)
        = (num (zrow m c (128 * (n / 16) + p.val)) (fun n' => ycol m c n' d) (1024 * (n % 16 + 1)) : EReal)

include hx hy in
/-- The first step of a row block starts from the reset values: maximum ⊥, denominator 0, weighted sums 0. -/
theorem inv_first (c : Dev nD) (t : Fin cfg0.N) (h0 : t.val % 16 = 0) : Inv m c t.val t.isLt := by
  intro p
  have h1 : ¬t.val % 16 = 15 := by omega
  obtain ⟨eacc, emax, eden⟩ := scratch_A m c t h0 h1
  rw [eacc, emax, eden]
  refine step_at m hx hy c t p (k0_pay10 (F := Ideal)) (k0_pay11 (F := Ideal)) (k0_pay9 (F := Ideal)) ?_ ?_ fun d => ?_
  · rw [h0, Nat.mul_zero, supE_zero]; exact Step.max_init _
  · rw [h0, Nat.mul_zero]; rw [Step.den_init]; simp [den]
  · rw [h0, Nat.mul_zero]; rw [Step.acc_init]; simp [num]

include hx hy in
/-- A later step starts from what the step before left. -/
theorem inv_next (c : Dev nD) (t : Fin cfg0.N) (h0 : ¬t.val % 16 = 0)
    (ih : Inv m c (t.val - 1) (Nat.lt_of_le_of_lt (Nat.sub_le _ _) t.isLt)) : Inv m c t.val t.isLt := by
  intro p
  have e1 : (t.val - 1) / 16 = t.val / 16 := by omega
  have e2 : (t.val - 1) % 16 + 1 = t.val % 16 := by omega
  obtain ⟨imax, iden, inum⟩ := ih p
  rw [e1, e2] at imax iden inum
  by_cases h1 : t.val % 16 = 15
  · obtain ⟨eacc, emax, eden, -⟩ := scratch_C m c t h0 h1
    rw [eacc, emax, eden]
    exact step_at m hx hy c t p _ _ _ imax iden inum
  · obtain ⟨eacc, emax, eden⟩ := scratch_B m c t h0 h1
    rw [eacc, emax, eden]
    exact step_at m hx hy c t p _ _ _ imax iden inum

include hx hy in
theorem inv (c : Dev nD) : ∀ (n : ℕ) (h : n < cfg0.N), Inv m c n h
  | 0, h => inv_first m hx hy c ⟨0, h⟩ rfl
  | n + 1, h => by
    by_cases h0 : (n + 1) % 16 = 0
    · exact inv_first m hx hy c ⟨n + 1, h⟩ h0
    · exact inv_next m hx hy c ⟨n + 1, h⟩ h0 (inv c n (Nat.lt_of_succ_lt h))

/-! ## The output block of a row block's last step, and the result array -/

include hx hy in
/-- Entry (p, d) of what the last step of row block t/16 stores is the reference's value at row 128·(t/16) + p. -/
theorem out_at (c : Dev nD) (t : Fin cfg0.N) (h1 : t.val % 16 = 15) (p : Fin 128) (d : Fin 3072)
    (hb : 128 * (t.val / 16) + p.val < 256) :
    (outsAt0 m c t.val t.isLt).1 (ix2 p d)
      = Cert.ReferenceIdeal.Read.val_main_v69 (F := Ideal) (X0 m c) (X1 m c) (X2 m c) (ix2 ⟨128 * (t.val / 16) + p.val, hb⟩ d) := by
  have h0 : ¬t.val % 16 = 0 := by omega
  obtain ⟨eacc, -, eden, eout⟩ := scratch_C m c t h0 h1
  rw [← eacc, ← eden] at eout
  obtain ⟨-, iden, inum⟩ := inv m hx hy c t.val t.isLt p
  have e16 : 1024 * (t.val % 16 + 1) = 16384 := by omega
  rw [e16] at iden inum
  have hden0 : den (zrow m c (128 * (t.val / 16) + p.val)) 16384 ≠ 0 := (den_pos _ (by norm_num)).ne'
  rw [eout]
  refine (Step.out_apply _ _ (bX m c t) (bS m c t) (bV m c t) p d).trans ?_
  rw [inum d, iden, ERealCoe.div_coe_coe _ _ hden0, bX_apply m c t p d hb, bS_apply m c t p hb,
    bV_apply m c t p hb, HostPrefix.V_sqrta m c ⟨_, hb⟩, HostPrefix.V_var m c ⟨_, hb⟩,
    Cert.RowReal.ref_out (X0 m c) (X1 m c) (X2 m c) (hx c) (hy c) ⟨_, hb⟩ d]
  rfl

/-- The result array: the reference's value of the three inputs. -/
abbrev result (c : Dev nD) : Buf (Elt Ideal) ((c : Thread nD τ).loc main_v22) :=
  Cert.ReferenceIdeal.Read.val_main_v69 (F := Ideal) (X0 m c) (X1 m c) (X2 m c)

include hx hy in
/-- What a writing-back step writes is its block of the result array. -/
theorem flushed_eq (c : Dev nD) (t : Fin cfg0.N) (hf : (cfg0.win 5).flush t = true) :
    (dats m 0 c).flushed 5 t = ((cfg0.win 5).blk t).view.read (Elt Ideal) (result m c) := by
  have h1 : t.val % 16 = 15 := (flush0_5 t).mp hf
  have hN : t.val < 32 := lt_of_lt_of_eq t.isLt N_0
  obtain ⟨-, -, -, -, -, -, -, -, -, -, e0, e1⟩ := Blocks.idx_facts t
  rw [Value.flushed5 m c t]
  funext j
  show (outsAt0 m c t.val t.isLt).1 j = result m c (((cfg0.win 5).blk t).view.emb j)
  have hj0 : (j 0).val < 128 := (j 0).isLt
  have hj1 : (j 1).val < 3072 := (j 1).isLt
  have hb : 128 * (t.val / 16) + (j 0).val < 256 := by omega
  have hj : j = ix2 (⟨(j 0).val, hj0⟩ : Fin 128) (⟨(j 1).val, hj1⟩ : Fin 3072) := by
    funext a; match a with | ⟨0, _⟩ => rfl | ⟨1, _⟩ => rfl
  refine (congrArg (outsAt0 m c t.val t.isLt).1 hj).trans ((out_at m hx hy c t h1 ⟨(j 0).val, hj0⟩ ⟨(j 1).val, hj1⟩ hb).trans ?_)
  show result m c _ = result m c _
  congr 1
  funext a
  apply Fin.ext
  match a with
  | ⟨0, _⟩ => show 128 * (t.val / 16) + (j 0).val = win0_5.index t 0 * 128 + 1 * (j 0).val; rw [e0]; omega
  | ⟨1, _⟩ => show (j 1).val = win0_5.index t 1 * 3072 + 1 * (j 1).val; rw [e1]; omega

/-- An index of the result array is in step t's block iff each coordinate is in the block's range on its axis. -/
theorem mem_blk (t : Fin cfg0.N) (i : S256x3072.Idx) :
    i ∈ ((cfg0.win 5).blk t).view.set ↔ ∀ a : Fin 2, win0_5.index t a * S128x3072.size a ≤ (i a).val ∧ (i a).val < win0_5.index t a * S128x3072.size a + S128x3072.size a := by
  show i ∈ ((View.whole main_v22).slice (win0_5.rect t)).set ↔ _
  rw [View.set_slice_whole, Rect.mem_set_unit]
  exact Iff.rfl

include hx hy in
/-- After the run the result array holds the reference's value: the two writing-back steps' blocks cover it. -/
theorem final (c : Dev nD) : (dats m 0 c).arrAt 5 cfg0.N = result m c :=
  (dats m 0 c).arrAt_eq_of_cover 5 (result m c) (flushed_eq m hx hy c) fun i => by
    have hi0 : (i 0).val < 256 := (i 0).isLt
    have hi1 : (i 1).val < 3072 := (i 1).isLt
    have hN : cfg0.N = 32 := N_0
    refine ⟨⟨16 * ((i 0).val / 128) + 15, by omega⟩, (flush0_5 _).mpr (by dsimp only; omega), ?_⟩
    obtain ⟨-, -, -, -, -, -, -, -, -, -, e0, e1⟩ := Blocks.idx_facts (⟨16 * ((i 0).val / 128) + 15, by omega⟩ : Fin cfg0.N)
    rw [mem_blk]
    intro a
    match a with
    | ⟨0, _⟩ =>
      show win0_5.index _ 0 * 128 ≤ (i 0).val ∧ (i 0).val < win0_5.index _ 0 * 128 + 128
      rw [e0]; dsimp only; omega
    | ⟨1, _⟩ =>
      show win0_5.index _ 1 * 3072 ≤ (i 1).val ∧ (i 1).val < win0_5.index _ 1 * 3072 + 3072
      rw [e1]; omega

include hx hy in
/-- The kernel's run, read: the result array at the reference's value, the inputs unchanged. -/
theorem run : θ_run defs (onTc (τ := τ) (main (F := Ideal))) ⟨m, fun _ => 0, ρ⟩ fun r => ∀ c : Dev nD,
      r.2.mem ((c : Thread nD τ).loc main_v22) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m hx hy c), (h c).2⟩) (Value.run_blocks m ρ)

end Cert.KernelIdeal.RowValue

end
-- ==== Proof.lean ====
/-
  The five claims.  The kernel is a blockwise softmax-weighted average: for each of the 256 query rows it walks the
  16384 data rows in 16 blocks of 1024, keeping a running maximum m of the logits, a denominator l = ∑ exp (z − m) and
  weighted sums ∑ exp (z − m) · y, rescaling both by exp (m_old − m_new) whenever the maximum moves, and divides at
  the end.  The reference takes the plain softmax over all 16384 logits and then the weighted sum.  Over the reals
  (the inputs finite, the schedule value alpha clipped strictly inside (0, 1), so every logit is a real) the two are
  one function: after the last block the carried quantities are those of the whole row, and
  (∑ exp (z − M) · y) / (∑ exp (z − M)) = ∑ (exp (z − M) / ∑ exp (z − M)) · y.  The two programs compute alpha,
  the variance 1 − alpha and √alpha by the same host operations, and the logit's two spellings, (d/2)/v and
  (1/2)/v · d, agree for a nonzero real v.
  The three frames: the two kernel programs' by their generated frame certificates, the reference's by its generated
  run.  The idealization rewrote nothing.
-/
import proofs.«167547_j90323162235656_1_alg».proof.Defs
import proofs.«167547_j90323162235656_1_alg».proof.Proof.Gen.Kernel
import proofs.«167547_j90323162235656_1_alg».proof.Proof.Gen.Kernel.Skeleton
import proofs.«167547_j90323162235656_1_alg».proof.Proof.Gen.Kernel.Launch
import proofs.«167547_j90323162235656_1_alg».proof.Proof.Gen.Kernel.Points
import proofs.«167547_j90323162235656_1_alg».proof.Proof.Gen.Kernel.Frame
import proofs.«167547_j90323162235656_1_alg».proof.Proof.Gen.KernelIdeal
import proofs.«167547_j90323162235656_1_alg».proof.Proof.Gen.KernelIdeal.Skeleton
import proofs.«167547_j90323162235656_1_alg».proof.Proof.Gen.KernelIdeal.Launch
import proofs.«167547_j90323162235656_1_alg».proof.Proof.Gen.KernelIdeal.Points
import proofs.«167547_j90323162235656_1_alg».proof.Proof.Gen.KernelIdeal.Frame
import proofs.«167547_j90323162235656_1_alg».proof.Proof.Gen.ReferenceIdeal
import proofs.«167547_j90323162235656_1_alg».proof.Proof.Gen.Pre_finite_inputs
import proofs.«167547_j90323162235656_1_alg».proof.Proof.Gen.KernelIdeal.Value
import proofs.«167547_j90323162235656_1_alg».proof.Proof.Gen.ReferenceIdeal.Run
import proofs.«167547_j90323162235656_1_alg».proof.Proof.Gen.ReferenceIdeal.Read
import proofs.«167547_j90323162235656_1_alg».proof.Proof.Scalars
import proofs.«167547_j90323162235656_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the three inputs, the kernel's result array and the reference's result are the same
    function of the inputs: the reference's value, which the kernel's last steps write block by block. -/
theorem algebraic : Cert.algebraic_KernelIdeal_ReferenceIdeal := by
  intro m ρ m' ρ' hpre hagree
  have hreal := fun c => Cert.Scalars.real_of_pre _ _ _ (hpre c)
  refine ⟨fun c => Cert.KernelIdeal.RowValue.result m c,
    Cert.KernelIdeal.RowValue.run m ρ (fun c => (hreal c).1) (fun c => (hreal c).2), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v69_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
